-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x12288 : Shape := ⟨2, ![12288, 12288]⟩
abbrev S_ : Shape := ⟨0, ![]⟩

class Facts : Prop where
  bcast_S_S12288x12288 : S_.BroadcastsInDim S12288x12288 (![] : Fin 0 → Fin S12288x12288.rank)
  reducesTo_S12288x12288_S_d0_1 : S12288x12288.ReducesTo [0, 1] S_
  h_S_ : 0 < S_.numel

variable [Facts]

def fn {F : FTy → Type} [FloatOps F] (main_arg0 : FVec F S12288x12288 .f32) : IVec S_ 1 :=
  let main_v0 : FVec F S12288x12288 .f32 := Host.absf main_arg0
  let main_cst : FVec F S_ .f32 := constant S_ .f32 0x7F800000#32
  let main_v1 : FVec F S12288x12288 .f32 := broadcastInDim S12288x12288 ![] bcast_S_S12288x12288 main_cst
  let main_v2 : IVec S12288x12288 1 := cmpf .olt main_v0 main_v1
  let main_c : IVec S_ 1 := constantI S_ 1 1#1
  let main_v3 : IVec S_ 1 := (fun x v => Host.reduce IntOp.andi x v reducesTo_S12288x12288_S_d0_1 h_S_) main_v2 main_c
  main_v3
-- ==== Kernel.lean ====
abbrev S12288x12288 : Shape := ⟨2, ![12288, 12288]⟩
abbrev S1024x2048 : Shape := ⟨2, ![1024, 2048]⟩
abbrev S_ : Shape := ⟨0, ![]⟩
abbrev S150994944 : Shape := ⟨1, ![150994944]⟩
abbrev S3200000 : Shape := ⟨1, ![3200000]⟩
abbrev S150994944x1 : Shape := ⟨2, ![150994944, 1]⟩
abbrev S1x3200000 : Shape := ⟨2, ![1, 3200000]⟩
abbrev S2x3200000 : Shape := ⟨2, ![2, 3200000]⟩
abbrev S3200000x2 : Shape := ⟨2, ![3200000, 2]⟩
abbrev S3200000x1 : Shape := ⟨2, ![3200000, 1]⟩

abbrev nBuf : Space → Nat
  | .hbm => 131
  | .vmem => 4
  | .smem => 0
  | _ => 0

abbrev hbmTy0_0 (i : Nat) : BufTy := match i % 128 with
  | 0 => ⟨S12288x12288, .f32⟩
  | 1 => ⟨S12288x12288, .i32⟩
  | 2 => ⟨S_, .i32⟩
  | 3 => ⟨S12288x12288, .i32⟩
  | 4 => ⟨S12288x12288, .i1⟩
  | 5 => ⟨S12288x12288, .i1⟩
  | 6 => ⟨S150994944, .i1⟩
  | 7 => ⟨S150994944, .i32⟩
  | 8 => ⟨S_, .i32⟩
  | 9 => ⟨S_, .i32⟩
  | 10 => ⟨S150994944, .i32⟩
  | 11 => ⟨S_, .i32⟩
  | 12 => ⟨S3200000, .i32⟩
  | 13 => ⟨S_, .i32⟩
  | 14 => ⟨S_, .i32⟩
  | 15 => ⟨S150994944, .i32⟩
  | 16 => ⟨S150994944, .i32⟩
  | 17 => ⟨S_, .i32⟩
  | 18 => ⟨S150994944, .i32⟩
  | 19 => ⟨S150994944, .i1⟩
  | 20 => ⟨S_, .i32⟩
  | 21 => ⟨S150994944, .i32⟩
  | 22 => ⟨S150994944, .i32⟩
  | 23 => ⟨S150994944, .i32⟩
  | 24 => ⟨S150994944x1, .i32⟩
  | 25 => ⟨S_, .i32⟩
  | 26 => ⟨S150994944, .i32⟩
  | 27 => ⟨S3200000, .i32⟩
  | 28 => ⟨S_, .i32⟩
  | 29 => ⟨S_, .i32⟩
  | 30 => ⟨S3200000, .i32⟩
  | 31 => ⟨S_, .i32⟩
  | 32 => ⟨S3200000, .i32⟩
  | 33 => ⟨S3200000, .i32⟩
  | 34 => ⟨S3200000, .i32⟩
  | 35 => ⟨S_, .i32⟩
  | 36 => ⟨S3200000, .i32⟩
  | 37 => ⟨S3200000, .i1⟩
  | 38 => ⟨S3200000, .i32⟩
  | 39 => ⟨S3200000, .i32⟩
  | 40 => ⟨S_, .i32⟩
  | 41 => ⟨S3200000, .i32⟩
  | 42 => ⟨S3200000, .i1⟩
  | 43 => ⟨S3200000, .i1⟩
  | 44 => ⟨S_, .i32⟩
  | 45 => ⟨S3200000, .i32⟩
  | 46 => ⟨S3200000, .i32⟩
  | 47 => ⟨S3200000, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S3200000, .i32⟩
  | 55 => ⟨S3200000, .i32⟩
  | 56 => ⟨S_, .i32⟩
  | 57 => ⟨S3200000, .i32⟩
  | 58 => ⟨S3200000, .i1⟩
  | 59 => ⟨S_, .i32⟩
  | 60 => ⟨S3200000, .i32⟩
  | 61 => ⟨S3200000, .i1⟩
  | 62 => ⟨S_, .i32⟩
  | 63 => ⟨S_, .i1⟩
  | 64 => ⟨S3200000, .i1⟩
  | 65 => ⟨S3200000, .i1⟩
  | 66 => ⟨S3200000, .i1⟩
  | 67 => ⟨S3200000, .i32⟩
  | 68 => ⟨S3200000, .i32⟩
  | 69 => ⟨S3200000, .i32⟩
  | 70 => ⟨S_, .i32⟩
  | 71 => ⟨S3200000, .i32⟩
  | 72 => ⟨S3200000, .i32⟩
  | 73 => ⟨S3200000, .i32⟩
  | 74 => ⟨S_, .i32⟩
  | 75 => ⟨S3200000, .i32⟩
  | 76 => ⟨S3200000, .i1⟩
  | 77 => ⟨S3200000, .i32⟩
  | 78 => ⟨S3200000, .i32⟩
  | 79 => ⟨S_, .i32⟩
  | 80 => ⟨S3200000, .i32⟩
  | 81 => ⟨S3200000, .i1⟩
  | 82 => ⟨S3200000, .i1⟩
  | 83 => ⟨S_, .i32⟩
  | 84 => ⟨S3200000, .i32⟩
  | 85 => ⟨S3200000, .i32⟩
  | 86 => ⟨S3200000, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S3200000, .i32⟩
  | 94 => ⟨S3200000, .i32⟩
  | 95 => ⟨S_, .i32⟩
  | 96 => ⟨S3200000, .i32⟩
  | 97 => ⟨S3200000, .i1⟩
  | 98 => ⟨S_, .i32⟩
  | 99 => ⟨S3200000, .i32⟩
  | 100 => ⟨S3200000, .i1⟩
  | 101 => ⟨S_, .i32⟩
  | 102 => ⟨S_, .i1⟩
  | 103 => ⟨S3200000, .i1⟩
  | 104 => ⟨S3200000, .i1⟩
  | 105 => ⟨S3200000, .i1⟩
  | 106 => ⟨S3200000, .i32⟩
  | 107 => ⟨S3200000, .i32⟩
  | 108 => ⟨S3200000, .i32⟩
  | 109 => ⟨S3200000, .i32⟩
  | 110 => ⟨S12288x12288, .i32⟩
  | 111 => ⟨S_, .i32⟩
  | 112 => ⟨S_, .i32⟩
  | 113 => ⟨S3200000, .i32⟩
  | 114 => ⟨S3200000, .i1⟩
  | 115 => ⟨S_, .i32⟩
  | 116 => ⟨S_, .i32⟩
  | 117 => ⟨S3200000, .i32⟩
  | 118 => ⟨S3200000, .i32⟩
  | 119 => ⟨S_, .i32⟩
  | 120 => ⟨S_, .i32⟩
  | 121 => ⟨S3200000, .i32⟩
  | 122 => ⟨S3200000, .i32⟩
  | 123 => ⟨S1x3200000, .i32⟩
  | 124 => ⟨S1x3200000, .i32⟩
  | 125 => ⟨S2x3200000, .i32⟩
  | 126 => ⟨S3200000x2, .i32⟩
  | 127 => ⟨S3200000x1, .i32⟩
  | _ => ⟨S12288x12288, .f32⟩

abbrev hbmTy0_1 (i : Nat) : BufTy := match i % 128 with
  | 0 => ⟨S3200000, .i32⟩
  | 1 => ⟨S3200000x1, .i32⟩
  | 2 => ⟨S3200000, .i32⟩
  | _ => ⟨S12288x12288, .f32⟩

abbrev hbmTy (i : Nat) : BufTy := match i / 128 with
  | 0 => hbmTy0_0 i
  | 1 => hbmTy0_1 i
  | _ => ⟨S12288x12288, .f32⟩

abbrev bufTy : (tb : Table) → Fin (tcTables nBuf tb) → BufTy
  | .hbm, ⟨i, _⟩ => hbmTy i
  | .local _ .vmem, ⟨0, _⟩ => ⟨S1024x2048, .f32⟩
  | .local _ .vmem, ⟨1, _⟩ => ⟨S1024x2048, .f32⟩
  | .local _ .vmem, ⟨2, _⟩ => ⟨S1024x2048, .i32⟩
  | .local _ .vmem, ⟨3, _⟩ => ⟨S1024x2048, .i32⟩
  | _, _ => ⟨S12288x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call1_v0 : Ref sig .tc := ⟨.hbm, 6, rfl⟩
abbrev main_call1_v1 : Ref sig .tc := ⟨.hbm, 7, rfl⟩
abbrev main_call1_call0_c : Ref sig .tc := ⟨.hbm, 8, rfl⟩
abbrev main_call1_call0_v0 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_c_1 : Ref sig .tc := ⟨.hbm, 13, rfl⟩
abbrev main_call2_v0 : Ref sig .tc := ⟨.hbm, 14, rfl⟩
abbrev main_call2_v1 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_call3_call0_c : Ref sig .tc := ⟨.hbm, 28, rfl⟩
abbrev main_call3_call0_v0 : Ref sig .tc := ⟨.hbm, 29, rfl⟩
abbrev main_v16 : Ref sig .tc := ⟨.hbm, 30, rfl⟩
abbrev main_c_5 : Ref sig .tc := ⟨.hbm, 31, rfl⟩
abbrev main_call4_v0 : Ref sig .tc := ⟨.hbm, 32, rfl⟩
abbrev main_call4_v1 : Ref sig .tc := ⟨.hbm, 33, rfl⟩
abbrev main_call4_v2 : Ref sig .tc := ⟨.hbm, 34, rfl⟩
abbrev main_call4_v3 : Ref sig .tc := ⟨.hbm, 35, rfl⟩
abbrev main_call4_v4 : Ref sig .tc := ⟨.hbm, 36, rfl⟩
abbrev main_call4_v5 : Ref sig .tc := ⟨.hbm, 37, rfl⟩
abbrev main_call4_v6 : Ref sig .tc := ⟨.hbm, 38, rfl⟩
abbrev main_call4_v7 : Ref sig .tc := ⟨.hbm, 39, rfl⟩
abbrev main_call4_c : Ref sig .tc := ⟨.hbm, 40, rfl⟩
abbrev main_call4_v8 : Ref sig .tc := ⟨.hbm, 41, rfl⟩
abbrev main_call4_v9 : Ref sig .tc := ⟨.hbm, 42, rfl⟩
abbrev main_call4_v10 : Ref sig .tc := ⟨.hbm, 43, rfl⟩
abbrev main_call4_c_0 : Ref sig .tc := ⟨.hbm, 44, rfl⟩
abbrev main_call4_v11 : Ref sig .tc := ⟨.hbm, 45, rfl⟩
abbrev main_call4_v12 : Ref sig .tc := ⟨.hbm, 46, rfl⟩
abbrev main_v17 : Ref sig .tc := ⟨.hbm, 47, rfl⟩
abbrev main_c_6 : Ref sig .tc := ⟨.hbm, 48, rfl⟩
abbrev main_call5_v0 : Ref sig .tc := ⟨.hbm, 49, rfl⟩
abbrev main_call5_c : Ref sig .tc := ⟨.hbm, 50, rfl⟩
abbrev main_call5_v1 : Ref sig .tc := ⟨.hbm, 51, rfl⟩
abbrev main_call5_c_0 : Ref sig .tc := ⟨.hbm, 52, rfl⟩
abbrev main_call5_v2 : Ref sig .tc := ⟨.hbm, 53, rfl⟩
abbrev main_call5_v3 : Ref sig .tc := ⟨.hbm, 54, rfl⟩
abbrev main_call5_v4 : Ref sig .tc := ⟨.hbm, 55, rfl⟩
abbrev main_call5_c_1 : Ref sig .tc := ⟨.hbm, 56, rfl⟩
abbrev main_call5_v5 : Ref sig .tc := ⟨.hbm, 57, rfl⟩
abbrev main_call5_v6 : Ref sig .tc := ⟨.hbm, 58, rfl⟩
abbrev main_call5_c_2 : Ref sig .tc := ⟨.hbm, 59, rfl⟩
abbrev main_call5_v7 : Ref sig .tc := ⟨.hbm, 60, rfl⟩
abbrev main_call5_v8 : Ref sig .tc := ⟨.hbm, 61, rfl⟩
abbrev main_call5_c_3 : Ref sig .tc := ⟨.hbm, 62, rfl⟩
abbrev main_call5_v9 : Ref sig .tc := ⟨.hbm, 63, rfl⟩
abbrev main_call5_v10 : Ref sig .tc := ⟨.hbm, 64, rfl⟩
abbrev main_call5_v11 : Ref sig .tc := ⟨.hbm, 65, rfl⟩
abbrev main_call5_v12 : Ref sig .tc := ⟨.hbm, 66, rfl⟩
abbrev main_call5_v13 : Ref sig .tc := ⟨.hbm, 67, rfl⟩
abbrev main_call5_v14 : Ref sig .tc := ⟨.hbm, 68, rfl⟩
abbrev main_v18 : Ref sig .tc := ⟨.hbm, 69, rfl⟩
abbrev main_c_7 : Ref sig .tc := ⟨.hbm, 70, rfl⟩
abbrev main_call6_v0 : Ref sig .tc := ⟨.hbm, 71, rfl⟩
abbrev main_call6_v1 : Ref sig .tc := ⟨.hbm, 72, rfl⟩
abbrev main_call6_v2 : Ref sig .tc := ⟨.hbm, 73, rfl⟩
abbrev main_call6_v3 : Ref sig .tc := ⟨.hbm, 74, rfl⟩
abbrev main_call6_v4 : Ref sig .tc := ⟨.hbm, 75, rfl⟩
abbrev main_call6_v5 : Ref sig .tc := ⟨.hbm, 76, rfl⟩
abbrev main_call6_v6 : Ref sig .tc := ⟨.hbm, 77, rfl⟩
abbrev main_call6_v7 : Ref sig .tc := ⟨.hbm, 78, rfl⟩
abbrev main_call6_c : Ref sig .tc := ⟨.hbm, 79, rfl⟩
abbrev main_call6_v8 : Ref sig .tc := ⟨.hbm, 80, rfl⟩
abbrev main_call6_v9 : Ref sig .tc := ⟨.hbm, 81, rfl⟩
abbrev main_call6_v10 : Ref sig .tc := ⟨.hbm, 82, rfl⟩
abbrev main_call6_c_0 : Ref sig .tc := ⟨.hbm, 83, rfl⟩
abbrev main_call6_v11 : Ref sig .tc := ⟨.hbm, 84, rfl⟩
abbrev main_call6_v12 : Ref sig .tc := ⟨.hbm, 85, rfl⟩
abbrev main_v19 : Ref sig .tc := ⟨.hbm, 86, rfl⟩
abbrev main_c_8 : Ref sig .tc := ⟨.hbm, 87, rfl⟩
abbrev main_call7_v0 : Ref sig .tc := ⟨.hbm, 88, rfl⟩
abbrev main_call7_c : Ref sig .tc := ⟨.hbm, 89, rfl⟩
abbrev main_call7_v1 : Ref sig .tc := ⟨.hbm, 90, rfl⟩
abbrev main_call7_c_0 : Ref sig .tc := ⟨.hbm, 91, rfl⟩
abbrev main_call7_v2 : Ref sig .tc := ⟨.hbm, 92, rfl⟩
abbrev main_call7_v3 : Ref sig .tc := ⟨.hbm, 93, rfl⟩
abbrev main_call7_v4 : Ref sig .tc := ⟨.hbm, 94, rfl⟩
abbrev main_call7_c_1 : Ref sig .tc := ⟨.hbm, 95, rfl⟩
abbrev main_call7_v5 : Ref sig .tc := ⟨.hbm, 96, rfl⟩
abbrev main_call7_v6 : Ref sig .tc := ⟨.hbm, 97, rfl⟩
abbrev main_call7_c_2 : Ref sig .tc := ⟨.hbm, 98, rfl⟩
abbrev main_call7_v7 : Ref sig .tc := ⟨.hbm, 99, rfl⟩
abbrev main_call7_v8 : Ref sig .tc := ⟨.hbm, 100, rfl⟩
abbrev main_call7_c_3 : Ref sig .tc := ⟨.hbm, 101, rfl⟩
abbrev main_call7_v9 : Ref sig .tc := ⟨.hbm, 102, rfl⟩
abbrev main_call7_v10 : Ref sig .tc := ⟨.hbm, 103, rfl⟩
abbrev main_call7_v11 : Ref sig .tc := ⟨.hbm, 104, rfl⟩
abbrev main_call7_v12 : Ref sig .tc := ⟨.hbm, 105, rfl⟩
abbrev main_call7_v13 : Ref sig .tc := ⟨.hbm, 106, rfl⟩
abbrev main_call7_v14 : Ref sig .tc := ⟨.hbm, 107, rfl⟩
abbrev main_v20 : Ref sig .tc := ⟨.hbm, 108, rfl⟩
abbrev main_v21 : Ref sig .tc := ⟨.hbm, 109, rfl⟩
abbrev main_v22 : Ref sig .tc := ⟨.hbm, 110, rfl⟩
abbrev main_c_9 : Ref sig .tc := ⟨.hbm, 111, rfl⟩
abbrev main_v23 : Ref sig .tc := ⟨.hbm, 112, rfl⟩
abbrev main_v24 : Ref sig .tc := ⟨.hbm, 113, rfl⟩
abbrev main_v25 : Ref sig .tc := ⟨.hbm, 114, rfl⟩
abbrev main_c_10 : Ref sig .tc := ⟨.hbm, 115, rfl⟩
abbrev main_call8_v0 : Ref sig .tc := ⟨.hbm, 116, rfl⟩
abbrev main_call8_v1 : Ref sig .tc := ⟨.hbm, 117, rfl⟩
abbrev main_v26 : Ref sig .tc := ⟨.hbm, 118, rfl⟩
abbrev main_c_11 : Ref sig .tc := ⟨.hbm, 119, rfl⟩
abbrev main_call9_v0 : Ref sig .tc := ⟨.hbm, 120, rfl⟩
abbrev main_call9_v1 : Ref sig .tc := ⟨.hbm, 121, rfl⟩
abbrev main_v27 : Ref sig .tc := ⟨.hbm, 122, rfl⟩
abbrev main_v28 : Ref sig .tc := ⟨.hbm, 123, rfl⟩
abbrev main_v29 : Ref sig .tc := ⟨.hbm, 124, rfl⟩
abbrev main_v30 : Ref sig .tc := ⟨.hbm, 125, rfl⟩
abbrev main_v31 : Ref sig .tc := ⟨.hbm, 126, rfl⟩
abbrev main_v32 : Ref sig .tc := ⟨.hbm, 127, rfl⟩
abbrev main_v33 : Ref sig .tc := ⟨.hbm, 128, rfl⟩
abbrev main_v34 : Ref sig .tc := ⟨.hbm, 129, rfl⟩
abbrev main_v35 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![12, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1024x2048_S1024x2048_0_0 : ∀ a, (![0, 0] : Fin 2 → Nat) a + S1024x2048.size a ≤ S1024x2048.size a
  h_S1024x2048 : 0 < S1024x2048.numel
  natLt_1_32 : 1 < 32
  bcast_S_S12288x12288 : S_.BroadcastsInDim S12288x12288 (![] : Fin 0 → Fin S12288x12288.rank)
  shapeCasts_S12288x12288_S150994944 : S12288x12288.ShapeCasts S150994944
  bcast_S_S_ : S_.BroadcastsInDim S_ (![] : Fin 0 → Fin S_.rank)
  reduceWindows_S150994944_S150994944_w150994944s1p150994943_0 : S150994944.ReduceWindows (![150994944] : Fin 1 → Nat) ![1] ![150994943] ![0] S150994944
  h_S_ : 0 < S_.numel
  bcast_S_S3200000 : S_.BroadcastsInDim S3200000 (![] : Fin 0 → Fin S3200000.rank)
  bcast_S_S150994944 : S_.BroadcastsInDim S150994944 (![] : Fin 0 → Fin S150994944.rank)
  bcast_S150994944_S150994944x1_0 : S150994944.BroadcastsInDim S150994944x1 (![0] : Fin 1 → Fin S150994944x1.rank)
  reduceWindows_S3200000_S3200000_w3200000s1p3199999_0 : S3200000.ReduceWindows (![3200000] : Fin 1 → Nat) ![1] ![3199999] ![0] S3200000
  reducesTo_S12288x12288_S_d0_1 : S12288x12288.ReducesTo [0, 1] S_
  bcast_S3200000_S1x3200000_1 : S3200000.BroadcastsInDim S1x3200000 (![1] : Fin 1 → Fin S1x3200000.rank)
  concatenates_S1x3200000_S1x3200000_S2x3200000_d0 : Shape.Concatenates [S1x3200000, S1x3200000] S2x3200000 0
  transposes_S2x3200000_S3200000x2_1_0 : S2x3200000.Transposes [1, 0] S3200000x2
  slices_S3200000x2_S3200000x1_0_0 : S3200000x2.Slices ![0, 0] S3200000x1
  shapeCasts_S3200000x1_S3200000 : S3200000x1.ShapeCasts S3200000
  slices_S3200000x2_S3200000x1_0_1 : S3200000x2.Slices ![0, 1] S3200000x1
  scatter_S3200000_S150994944x1_S150994944_n_0_0_1_wf : ScatterDims.WF S3200000 S150994944x1 S150994944 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S12288x12288.size a
  hwx0_0 : ∀ i : grid0.Coords, EltTy.bits .f32 = 32 ∨ (Rect.block (s := S12288x12288) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S12288x12288.size a
  hwx0_1 : ∀ i : grid0.Coords, EltTy.bits .i32 = 32 ∨ (Rect.block (s := S12288x12288) S1024x2048.size (cc0_transform_1 i) (hinb0_1 i)).WholeWords (EltTy.packing .i32)

variable [Facts₀]

def scatter_S3200000_S150994944x1_S150994944_n_0_0_1 : ScatterDims S3200000 S150994944x1 S150994944 where
  updateWindowDims := []
  insertedWindowDims := [0]
  scatterDimsToOperandDims := [0]
  indexVectorDim := 1
  wf := scatter_S3200000_S150994944x1_S150994944_n_0_0_1_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S12288x12288 : Shape := ⟨2, ![12288, 12288]⟩
abbrev S_ : Shape := ⟨0, ![]⟩
abbrev S150994944 : Shape := ⟨1, ![150994944]⟩
abbrev S3200000 : Shape := ⟨1, ![3200000]⟩
abbrev S150994944x1 : Shape := ⟨2, ![150994944, 1]⟩
abbrev S1x3200000 : Shape := ⟨2, ![1, 3200000]⟩
abbrev S2x3200000 : Shape := ⟨2, ![2, 3200000]⟩
abbrev S3200000x2 : Shape := ⟨2, ![3200000, 2]⟩
abbrev S3200000x1 : Shape := ⟨2, ![3200000, 1]⟩

abbrev nBuf : Space → Nat
  | .hbm => 129
  | .vmem => 0
  | .smem => 0
  | _ => 0

abbrev hbmTy0_0 (i : Nat) : BufTy := match i % 128 with
  | 0 => ⟨S12288x12288, .f32⟩
  | 1 => ⟨S_, .f32⟩
  | 2 => ⟨S12288x12288, .f32⟩
  | 3 => ⟨S12288x12288, .i1⟩
  | 4 => ⟨S150994944, .i1⟩
  | 5 => ⟨S150994944, .i32⟩
  | 6 => ⟨S_, .i32⟩
  | 7 => ⟨S_, .i32⟩
  | 8 => ⟨S150994944, .i32⟩
  | 9 => ⟨S_, .i32⟩
  | 10 => ⟨S3200000, .i32⟩
  | 11 => ⟨S_, .i32⟩
  | 12 => ⟨S_, .i32⟩
  | 13 => ⟨S150994944, .i32⟩
  | 14 => ⟨S150994944, .i32⟩
  | 15 => ⟨S_, .i32⟩
  | 16 => ⟨S150994944, .i32⟩
  | 17 => ⟨S150994944, .i1⟩
  | 18 => ⟨S_, .i32⟩
  | 19 => ⟨S150994944, .i32⟩
  | 20 => ⟨S150994944, .i32⟩
  | 21 => ⟨S150994944, .i32⟩
  | 22 => ⟨S150994944x1, .i32⟩
  | 23 => ⟨S_, .i32⟩
  | 24 => ⟨S150994944, .i32⟩
  | 25 => ⟨S3200000, .i32⟩
  | 26 => ⟨S_, .i32⟩
  | 27 => ⟨S_, .i32⟩
  | 28 => ⟨S3200000, .i32⟩
  | 29 => ⟨S_, .i32⟩
  | 30 => ⟨S3200000, .i32⟩
  | 31 => ⟨S3200000, .i32⟩
  | 32 => ⟨S3200000, .i32⟩
  | 33 => ⟨S_, .i32⟩
  | 34 => ⟨S3200000, .i32⟩
  | 35 => ⟨S3200000, .i1⟩
  | 36 => ⟨S3200000, .i32⟩
  | 37 => ⟨S3200000, .i32⟩
  | 38 => ⟨S_, .i32⟩
  | 39 => ⟨S3200000, .i32⟩
  | 40 => ⟨S3200000, .i1⟩
  | 41 => ⟨S3200000, .i1⟩
  | 42 => ⟨S_, .i32⟩
  | 43 => ⟨S3200000, .i32⟩
  | 44 => ⟨S3200000, .i32⟩
  | 45 => ⟨S3200000, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S3200000, .i32⟩
  | 53 => ⟨S3200000, .i32⟩
  | 54 => ⟨S_, .i32⟩
  | 55 => ⟨S3200000, .i32⟩
  | 56 => ⟨S3200000, .i1⟩
  | 57 => ⟨S_, .i32⟩
  | 58 => ⟨S3200000, .i32⟩
  | 59 => ⟨S3200000, .i1⟩
  | 60 => ⟨S_, .i32⟩
  | 61 => ⟨S_, .i1⟩
  | 62 => ⟨S3200000, .i1⟩
  | 63 => ⟨S3200000, .i1⟩
  | 64 => ⟨S3200000, .i1⟩
  | 65 => ⟨S3200000, .i32⟩
  | 66 => ⟨S3200000, .i32⟩
  | 67 => ⟨S3200000, .i32⟩
  | 68 => ⟨S_, .i32⟩
  | 69 => ⟨S3200000, .i32⟩
  | 70 => ⟨S3200000, .i32⟩
  | 71 => ⟨S3200000, .i32⟩
  | 72 => ⟨S_, .i32⟩
  | 73 => ⟨S3200000, .i32⟩
  | 74 => ⟨S3200000, .i1⟩
  | 75 => ⟨S3200000, .i32⟩
  | 76 => ⟨S3200000, .i32⟩
  | 77 => ⟨S_, .i32⟩
  | 78 => ⟨S3200000, .i32⟩
  | 79 => ⟨S3200000, .i1⟩
  | 80 => ⟨S3200000, .i1⟩
  | 81 => ⟨S_, .i32⟩
  | 82 => ⟨S3200000, .i32⟩
  | 83 => ⟨S3200000, .i32⟩
  | 84 => ⟨S3200000, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S3200000, .i32⟩
  | 92 => ⟨S3200000, .i32⟩
  | 93 => ⟨S_, .i32⟩
  | 94 => ⟨S3200000, .i32⟩
  | 95 => ⟨S3200000, .i1⟩
  | 96 => ⟨S_, .i32⟩
  | 97 => ⟨S3200000, .i32⟩
  | 98 => ⟨S3200000, .i1⟩
  | 99 => ⟨S_, .i32⟩
  | 100 => ⟨S_, .i1⟩
  | 101 => ⟨S3200000, .i1⟩
  | 102 => ⟨S3200000, .i1⟩
  | 103 => ⟨S3200000, .i1⟩
  | 104 => ⟨S3200000, .i32⟩
  | 105 => ⟨S3200000, .i32⟩
  | 106 => ⟨S3200000, .i32⟩
  | 107 => ⟨S3200000, .i32⟩
  | 108 => ⟨S12288x12288, .i32⟩
  | 109 => ⟨S_, .i32⟩
  | 110 => ⟨S_, .i32⟩
  | 111 => ⟨S3200000, .i32⟩
  | 112 => ⟨S3200000, .i1⟩
  | 113 => ⟨S_, .i32⟩
  | 114 => ⟨S_, .i32⟩
  | 115 => ⟨S3200000, .i32⟩
  | 116 => ⟨S3200000, .i32⟩
  | 117 => ⟨S_, .i32⟩
  | 118 => ⟨S_, .i32⟩
  | 119 => ⟨S3200000, .i32⟩
  | 120 => ⟨S3200000, .i32⟩
  | 121 => ⟨S1x3200000, .i32⟩
  | 122 => ⟨S1x3200000, .i32⟩
  | 123 => ⟨S2x3200000, .i32⟩
  | 124 => ⟨S3200000x2, .i32⟩
  | 125 => ⟨S3200000x1, .i32⟩
  | 126 => ⟨S3200000, .i32⟩
  | 127 => ⟨S3200000x1, .i32⟩
  | _ => ⟨S12288x12288, .f32⟩

abbrev hbmTy0_1 (i : Nat) : BufTy := match i % 128 with
  | 0 => ⟨S3200000, .i32⟩
  | _ => ⟨S12288x12288, .f32⟩

abbrev hbmTy (i : Nat) : BufTy := match i / 128 with
  | 0 => hbmTy0_0 i
  | 1 => hbmTy0_1 i
  | _ => ⟨S12288x12288, .f32⟩

abbrev bufTy : (tb : Table) → Fin (tcTables nBuf tb) → BufTy
  | .hbm, ⟨i, _⟩ => hbmTy i
  | _, _ => ⟨S12288x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_call1_v0 : Ref sig .tc := ⟨.hbm, 4, rfl⟩
abbrev main_call1_v1 : Ref sig .tc := ⟨.hbm, 5, rfl⟩
abbrev main_call1_call0_c : Ref sig .tc := ⟨.hbm, 6, rfl⟩
abbrev main_call1_call0_v0 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_c_0 : Ref sig .tc := ⟨.hbm, 11, rfl⟩
abbrev main_call2_v0 : Ref sig .tc := ⟨.hbm, 12, rfl⟩
abbrev main_call2_v1 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_call3_call0_c : Ref sig .tc := ⟨.hbm, 26, rfl⟩
abbrev main_call3_call0_v0 : Ref sig .tc := ⟨.hbm, 27, rfl⟩
abbrev main_v14 : Ref sig .tc := ⟨.hbm, 28, rfl⟩
abbrev main_c_4 : Ref sig .tc := ⟨.hbm, 29, rfl⟩
abbrev main_call4_v0 : Ref sig .tc := ⟨.hbm, 30, rfl⟩
abbrev main_call4_v1 : Ref sig .tc := ⟨.hbm, 31, rfl⟩
abbrev main_call4_v2 : Ref sig .tc := ⟨.hbm, 32, rfl⟩
abbrev main_call4_v3 : Ref sig .tc := ⟨.hbm, 33, rfl⟩
abbrev main_call4_v4 : Ref sig .tc := ⟨.hbm, 34, rfl⟩
abbrev main_call4_v5 : Ref sig .tc := ⟨.hbm, 35, rfl⟩
abbrev main_call4_v6 : Ref sig .tc := ⟨.hbm, 36, rfl⟩
abbrev main_call4_v7 : Ref sig .tc := ⟨.hbm, 37, rfl⟩
abbrev main_call4_c : Ref sig .tc := ⟨.hbm, 38, rfl⟩
abbrev main_call4_v8 : Ref sig .tc := ⟨.hbm, 39, rfl⟩
abbrev main_call4_v9 : Ref sig .tc := ⟨.hbm, 40, rfl⟩
abbrev main_call4_v10 : Ref sig .tc := ⟨.hbm, 41, rfl⟩
abbrev main_call4_c_0 : Ref sig .tc := ⟨.hbm, 42, rfl⟩
abbrev main_call4_v11 : Ref sig .tc := ⟨.hbm, 43, rfl⟩
abbrev main_call4_v12 : Ref sig .tc := ⟨.hbm, 44, rfl⟩
abbrev main_v15 : Ref sig .tc := ⟨.hbm, 45, rfl⟩
abbrev main_c_5 : Ref sig .tc := ⟨.hbm, 46, rfl⟩
abbrev main_call5_v0 : Ref sig .tc := ⟨.hbm, 47, rfl⟩
abbrev main_call5_c : Ref sig .tc := ⟨.hbm, 48, rfl⟩
abbrev main_call5_v1 : Ref sig .tc := ⟨.hbm, 49, rfl⟩
abbrev main_call5_c_0 : Ref sig .tc := ⟨.hbm, 50, rfl⟩
abbrev main_call5_v2 : Ref sig .tc := ⟨.hbm, 51, rfl⟩
abbrev main_call5_v3 : Ref sig .tc := ⟨.hbm, 52, rfl⟩
abbrev main_call5_v4 : Ref sig .tc := ⟨.hbm, 53, rfl⟩
abbrev main_call5_c_1 : Ref sig .tc := ⟨.hbm, 54, rfl⟩
abbrev main_call5_v5 : Ref sig .tc := ⟨.hbm, 55, rfl⟩
abbrev main_call5_v6 : Ref sig .tc := ⟨.hbm, 56, rfl⟩
abbrev main_call5_c_2 : Ref sig .tc := ⟨.hbm, 57, rfl⟩
abbrev main_call5_v7 : Ref sig .tc := ⟨.hbm, 58, rfl⟩
abbrev main_call5_v8 : Ref sig .tc := ⟨.hbm, 59, rfl⟩
abbrev main_call5_c_3 : Ref sig .tc := ⟨.hbm, 60, rfl⟩
abbrev main_call5_v9 : Ref sig .tc := ⟨.hbm, 61, rfl⟩
abbrev main_call5_v10 : Ref sig .tc := ⟨.hbm, 62, rfl⟩
abbrev main_call5_v11 : Ref sig .tc := ⟨.hbm, 63, rfl⟩
abbrev main_call5_v12 : Ref sig .tc := ⟨.hbm, 64, rfl⟩
abbrev main_call5_v13 : Ref sig .tc := ⟨.hbm, 65, rfl⟩
abbrev main_call5_v14 : Ref sig .tc := ⟨.hbm, 66, rfl⟩
abbrev main_v16 : Ref sig .tc := ⟨.hbm, 67, rfl⟩
abbrev main_c_6 : Ref sig .tc := ⟨.hbm, 68, rfl⟩
abbrev main_call6_v0 : Ref sig .tc := ⟨.hbm, 69, rfl⟩
abbrev main_call6_v1 : Ref sig .tc := ⟨.hbm, 70, rfl⟩
abbrev main_call6_v2 : Ref sig .tc := ⟨.hbm, 71, rfl⟩
abbrev main_call6_v3 : Ref sig .tc := ⟨.hbm, 72, rfl⟩
abbrev main_call6_v4 : Ref sig .tc := ⟨.hbm, 73, rfl⟩
abbrev main_call6_v5 : Ref sig .tc := ⟨.hbm, 74, rfl⟩
abbrev main_call6_v6 : Ref sig .tc := ⟨.hbm, 75, rfl⟩
abbrev main_call6_v7 : Ref sig .tc := ⟨.hbm, 76, rfl⟩
abbrev main_call6_c : Ref sig .tc := ⟨.hbm, 77, rfl⟩
abbrev main_call6_v8 : Ref sig .tc := ⟨.hbm, 78, rfl⟩
abbrev main_call6_v9 : Ref sig .tc := ⟨.hbm, 79, rfl⟩
abbrev main_call6_v10 : Ref sig .tc := ⟨.hbm, 80, rfl⟩
abbrev main_call6_c_0 : Ref sig .tc := ⟨.hbm, 81, rfl⟩
abbrev main_call6_v11 : Ref sig .tc := ⟨.hbm, 82, rfl⟩
abbrev main_call6_v12 : Ref sig .tc := ⟨.hbm, 83, rfl⟩
abbrev main_v17 : Ref sig .tc := ⟨.hbm, 84, rfl⟩
abbrev main_c_7 : Ref sig .tc := ⟨.hbm, 85, rfl⟩
abbrev main_call7_v0 : Ref sig .tc := ⟨.hbm, 86, rfl⟩
abbrev main_call7_c : Ref sig .tc := ⟨.hbm, 87, rfl⟩
abbrev main_call7_v1 : Ref sig .tc := ⟨.hbm, 88, rfl⟩
abbrev main_call7_c_0 : Ref sig .tc := ⟨.hbm, 89, rfl⟩
abbrev main_call7_v2 : Ref sig .tc := ⟨.hbm, 90, rfl⟩
abbrev main_call7_v3 : Ref sig .tc := ⟨.hbm, 91, rfl⟩
abbrev main_call7_v4 : Ref sig .tc := ⟨.hbm, 92, rfl⟩
abbrev main_call7_c_1 : Ref sig .tc := ⟨.hbm, 93, rfl⟩
abbrev main_call7_v5 : Ref sig .tc := ⟨.hbm, 94, rfl⟩
abbrev main_call7_v6 : Ref sig .tc := ⟨.hbm, 95, rfl⟩
abbrev main_call7_c_2 : Ref sig .tc := ⟨.hbm, 96, rfl⟩
abbrev main_call7_v7 : Ref sig .tc := ⟨.hbm, 97, rfl⟩
abbrev main_call7_v8 : Ref sig .tc := ⟨.hbm, 98, rfl⟩
abbrev main_call7_c_3 : Ref sig .tc := ⟨.hbm, 99, rfl⟩
abbrev main_call7_v9 : Ref sig .tc := ⟨.hbm, 100, rfl⟩
abbrev main_call7_v10 : Ref sig .tc := ⟨.hbm, 101, rfl⟩
abbrev main_call7_v11 : Ref sig .tc := ⟨.hbm, 102, rfl⟩
abbrev main_call7_v12 : Ref sig .tc := ⟨.hbm, 103, rfl⟩
abbrev main_call7_v13 : Ref sig .tc := ⟨.hbm, 104, rfl⟩
abbrev main_call7_v14 : Ref sig .tc := ⟨.hbm, 105, rfl⟩
abbrev main_v18 : Ref sig .tc := ⟨.hbm, 106, rfl⟩
abbrev main_v19 : Ref sig .tc := ⟨.hbm, 107, rfl⟩
abbrev main_v20 : Ref sig .tc := ⟨.hbm, 108, rfl⟩
abbrev main_c_8 : Ref sig .tc := ⟨.hbm, 109, rfl⟩
abbrev main_v21 : Ref sig .tc := ⟨.hbm, 110, rfl⟩
abbrev main_v22 : Ref sig .tc := ⟨.hbm, 111, rfl⟩
abbrev main_v23 : Ref sig .tc := ⟨.hbm, 112, rfl⟩
abbrev main_c_9 : Ref sig .tc := ⟨.hbm, 113, rfl⟩
abbrev main_call8_v0 : Ref sig .tc := ⟨.hbm, 114, rfl⟩
abbrev main_call8_v1 : Ref sig .tc := ⟨.hbm, 115, rfl⟩
abbrev main_v24 : Ref sig .tc := ⟨.hbm, 116, rfl⟩
abbrev main_c_10 : Ref sig .tc := ⟨.hbm, 117, rfl⟩
abbrev main_call9_v0 : Ref sig .tc := ⟨.hbm, 118, rfl⟩
abbrev main_call9_v1 : Ref sig .tc := ⟨.hbm, 119, rfl⟩
abbrev main_v25 : Ref sig .tc := ⟨.hbm, 120, rfl⟩
abbrev main_v26 : Ref sig .tc := ⟨.hbm, 121, rfl⟩
abbrev main_v27 : Ref sig .tc := ⟨.hbm, 122, rfl⟩
abbrev main_v28 : Ref sig .tc := ⟨.hbm, 123, rfl⟩
abbrev main_v29 : Ref sig .tc := ⟨.hbm, 124, rfl⟩
abbrev main_v30 : Ref sig .tc := ⟨.hbm, 125, rfl⟩
abbrev main_v31 : Ref sig .tc := ⟨.hbm, 126, rfl⟩
abbrev main_v32 : Ref sig .tc := ⟨.hbm, 127, rfl⟩
abbrev main_v33 : Ref sig .tc := ⟨.hbm, 128, rfl⟩

abbrev nD : Nat := 1
abbrev τ : Topo := Topo.v7x

variable {F : FTy → Type} [FloatOps F]

class Facts₀ : Prop where
  bcast_S_S12288x12288 : S_.BroadcastsInDim S12288x12288 (![] : Fin 0 → Fin S12288x12288.rank)
  shapeCasts_S12288x12288_S150994944 : S12288x12288.ShapeCasts S150994944
  natLt_1_32 : 1 < 32
  bcast_S_S_ : S_.BroadcastsInDim S_ (![] : Fin 0 → Fin S_.rank)
  reduceWindows_S150994944_S150994944_w150994944s1p150994943_0 : S150994944.ReduceWindows (![150994944] : Fin 1 → Nat) ![1] ![150994943] ![0] S150994944
  h_S_ : 0 < S_.numel
  bcast_S_S3200000 : S_.BroadcastsInDim S3200000 (![] : Fin 0 → Fin S3200000.rank)
  bcast_S_S150994944 : S_.BroadcastsInDim S150994944 (![] : Fin 0 → Fin S150994944.rank)
  bcast_S150994944_S150994944x1_0 : S150994944.BroadcastsInDim S150994944x1 (![0] : Fin 1 → Fin S150994944x1.rank)
  reduceWindows_S3200000_S3200000_w3200000s1p3199999_0 : S3200000.ReduceWindows (![3200000] : Fin 1 → Nat) ![1] ![3199999] ![0] S3200000
  reducesTo_S12288x12288_S_d0_1 : S12288x12288.ReducesTo [0, 1] S_
  bcast_S3200000_S1x3200000_1 : S3200000.BroadcastsInDim S1x3200000 (![1] : Fin 1 → Fin S1x3200000.rank)
  concatenates_S1x3200000_S1x3200000_S2x3200000_d0 : Shape.Concatenates [S1x3200000, S1x3200000] S2x3200000 0
  transposes_S2x3200000_S3200000x2_1_0 : S2x3200000.Transposes [1, 0] S3200000x2
  slices_S3200000x2_S3200000x1_0_0 : S3200000x2.Slices ![0, 0] S3200000x1
  shapeCasts_S3200000x1_S3200000 : S3200000x1.ShapeCasts S3200000
  slices_S3200000x2_S3200000x1_0_1 : S3200000x2.Slices ![0, 1] S3200000x1
  scatter_S3200000_S150994944x1_S150994944_n_0_0_1_wf : ScatterDims.WF S3200000 S150994944x1 S150994944 [] [0] [0] 1

variable [Facts₀]

def scatter_S3200000_S150994944x1_S150994944_n_0_0_1 : ScatterDims S3200000 S150994944x1 S150994944 where
  updateWindowDims := []
  insertedWindowDims := [0]
  scatterDimsToOperandDims := [0]
  indexVectorDim := 1
  wf := scatter_S3200000_S150994944x1_S150994944_n_0_0_1_wf

class Facts : Prop extends Facts₀ where

variable [Facts]
-- ==== Proof.KernelData.lean ====
/-
  The data of the thresholding kernel's one pipelined region, shared by its frame and by its value.

  The region runs a grid of 12 × 6 points; at point `t` the body is handed the `1024 × 2048` block of the input
  matrix at block index `(t / 6, t % 6)` and leaves, in the output's staging buffer, the block of zero/one words
  `x < 0.01` extended to 32 bits, which the pipeline writes back at the same block index. Nothing else is kept
  between points. `@main` has no operation before the region, so the region finds every buffer at its launch
  contents; after it come the host stretches that turn the written array into the index list.
-/
import proofs.«156244_j7541962572511_1_alg».proof.Proof.Gen.Kernel.Launch
import proofs.«156244_j7541962572511_1_alg».proof.Proof.Gen.Kernel.Skeleton
import proofs.«156244_j7541962572511_1_alg».proof.Proof.Gen.Kernel.Points
import Idealize.ShloMosaic.Lib.Pipeline.FrameBody
import Idealize.ShloMosaic.Lib.Pipeline.FrameSuffix

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.Kernel Cert.Kernel.Gen

variable {F : FTy → Type} [FloatOps F]

variable (m : (ℓ : Loc nD τ sig) → Buf (Elt F) ℓ)

/-- The host stretches after the region, in program order: the mask recovered from the written words, then the
    index list computed from it. -/
abbrev opss : List (List (HloOp τ sig (Elt F))) :=
  [hostOps1, hostOps1_1, hostOps1_2, hostOps1_3, hostOps1_4, hostOps1_5, hostOps1_6, hostOps1_7, hostOps1_8, hostOps1_9,
    hostOps1_10, hostOps1_11, hostOps1_12, hostOps1_13, hostOps1_14, hostOps1_15, hostOps1_16, hostOps1_17, hostOps1_18,
    hostOps1_19, hostOps1_20]

/-- Core `c`'s buffer contents when the region is entered: no host operation comes first, so the launch contents. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- The input matrix is found as launched. -/
theorem V_main_arg0 (c : Dev nD) : V m c main_arg0 = m ((c : Thread nD τ).loc main_arg0) := rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole staging block, as the rectangle the body loads and stores through. -/
abbrev whole : Rect S1024x2048 := Rect.unit (s := S1024x2048) ![0, 0] S1024x2048.size inb_S1024x2048_S1024x2048_0_0

/-- What the body leaves in the output's staging buffer, from the input block: its one store, of the comparison's
    words, over the whole block. -/
def out0_1 (x0 : Vec F S1024x2048 .f32) : Vec F S1024x2048 .i32 :=
  View.canon [⟨whole, k0_pay1 (View.ld x0 whole)⟩]

/-- The proof data of the pipeline on core `c`: the arrays as launched; after the body at point `t` the input's
    buffer still at its block and the output's at the comparison of that block; the region invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

end Cert.Kernel.Hand

end
-- ==== Proof.KernelFrame.lean ====
/-
  The frame run of the thresholding kernel's program: the one pipelined region, then the host stretches that turn
  the written array into the index list.

  `@main` begins with the region and goes on with 129 host operations in 21 stretches. None of them allocates, each
  touches only unscoped TensorCore buffers, and none writes the input matrix or the array the region writes (the
  first stretch reads that array and writes buffers of its own). The body at a grid point loads the whole input
  block, also loads the whole output block — a value nothing stored depends on — and stores the comparison's words
  over the whole output block; so it leaves the input's buffer as found and the output's at a closed function of
  the input block, whatever the output's buffer held. With these the library's launch theorem for a region
  followed by host lines runs `@main` to its frame post, and the input matrix, an input window's array, is read
  off that post unchanged.
-/
import proofs.«156244_j7541962572511_1_alg».proof.Proof.KernelData
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host stretches after the region

Stretch by stretch: no operation allocates a buffer (`…_fresh`), and none writes the input matrix or the array the
region writes (`…_keeps`): each operation writes only its own result buffer, and that is neither of the two. -/

theorem hostOps1_fresh : (hostOps1 : List (HloOp τ sig (Elt F))).Forall fun op => op.fresh = ∅ := by
  simp only [List.Forall]; repeat' constructor
theorem hostOps1_keeps : (hostOps1 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_fresh : (hostOps1_1 : List (HloOp τ sig (Elt F))).Forall fun op => op.fresh = ∅ := by
  simp only [List.Forall]; repeat' constructor
theorem hostOps1_1_keeps : (hostOps1_1 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_fresh : (hostOps1_2 : List (HloOp τ sig (Elt F))).Forall fun op => op.fresh = ∅ := by
  simp only [List.Forall]; repeat' constructor
theorem hostOps1_2_keeps : (hostOps1_2 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_fresh : (hostOps1_3 : List (HloOp τ sig (Elt F))).Forall fun op => op.fresh = ∅ := by
  simp only [List.Forall]; repeat' constructor
theorem hostOps1_3_keeps : (hostOps1_3 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_fresh : (hostOps1_4 : List (HloOp τ sig (Elt F))).Forall fun op => op.fresh = ∅ := by
  simp only [List.Forall]; repeat' constructor
theorem hostOps1_4_keeps : (hostOps1_4 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_5_fresh : (hostOps1_5 : List (HloOp τ sig (Elt F))).Forall fun op => op.fresh = ∅ := by
  simp only [List.Forall]; repeat' constructor
theorem hostOps1_5_keeps : (hostOps1_5 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_6_fresh : (hostOps1_6 : List (HloOp τ sig (Elt F))).Forall fun op => op.fresh = ∅ := by
  simp only [List.Forall]; repeat' constructor
theorem hostOps1_6_keeps : (hostOps1_6 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_7_fresh : (hostOps1_7 : List (HloOp τ sig (Elt F))).Forall fun op => op.fresh = ∅ := by
  simp only [List.Forall]; repeat' constructor
theorem hostOps1_7_keeps : (hostOps1_7 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_8_fresh : (hostOps1_8 : List (HloOp τ sig (Elt F))).Forall fun op => op.fresh = ∅ := by
  simp only [List.Forall]; repeat' constructor
theorem hostOps1_8_keeps : (hostOps1_8 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_9_fresh : (hostOps1_9 : List (HloOp τ sig (Elt F))).Forall fun op => op.fresh = ∅ := by
  simp only [List.Forall]; repeat' constructor
theorem hostOps1_9_keeps : (hostOps1_9 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_10_fresh : (hostOps1_10 : List (HloOp τ sig (Elt F))).Forall fun op => op.fresh = ∅ := by
  simp only [List.Forall]; repeat' constructor
theorem hostOps1_10_keeps : (hostOps1_10 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_11_fresh : (hostOps1_11 : List (HloOp τ sig (Elt F))).Forall fun op => op.fresh = ∅ := by
  simp only [List.Forall]; repeat' constructor
theorem hostOps1_11_keeps : (hostOps1_11 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_12_fresh : (hostOps1_12 : List (HloOp τ sig (Elt F))).Forall fun op => op.fresh = ∅ := by
  simp only [List.Forall]; repeat' constructor
theorem hostOps1_12_keeps : (hostOps1_12 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_13_fresh : (hostOps1_13 : List (HloOp τ sig (Elt F))).Forall fun op => op.fresh = ∅ := by
  simp only [List.Forall]; repeat' constructor
theorem hostOps1_13_keeps : (hostOps1_13 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_14_fresh : (hostOps1_14 : List (HloOp τ sig (Elt F))).Forall fun op => op.fresh = ∅ := by
  simp only [List.Forall]; repeat' constructor
theorem hostOps1_14_keeps : (hostOps1_14 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_15_fresh : (hostOps1_15 : List (HloOp τ sig (Elt F))).Forall fun op => op.fresh = ∅ := by
  simp only [List.Forall]; repeat' constructor
theorem hostOps1_15_keeps : (hostOps1_15 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_16_fresh : (hostOps1_16 : List (HloOp τ sig (Elt F))).Forall fun op => op.fresh = ∅ := by
  simp only [List.Forall]; repeat' constructor
theorem hostOps1_16_keeps : (hostOps1_16 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_17_fresh : (hostOps1_17 : List (HloOp τ sig (Elt F))).Forall fun op => op.fresh = ∅ := by
  simp only [List.Forall]; repeat' constructor
theorem hostOps1_17_keeps : (hostOps1_17 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_18_fresh : (hostOps1_18 : List (HloOp τ sig (Elt F))).Forall fun op => op.fresh = ∅ := by
  simp only [List.Forall]; repeat' constructor
theorem hostOps1_18_keeps : (hostOps1_18 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_19_fresh : (hostOps1_19 : List (HloOp τ sig (Elt F))).Forall fun op => op.fresh = ∅ := by
  simp only [List.Forall]; repeat' constructor
theorem hostOps1_19_keeps : (hostOps1_19 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_20_fresh : (hostOps1_20 : List (HloOp τ sig (Elt F))).Forall fun op => op.fresh = ∅ := by
  simp only [List.Forall]; repeat' constructor
theorem hostOps1_20_keeps : (hostOps1_20 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- Every operation of every stretch touches TensorCore references only; -/
theorem opss_sub : (opss : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub⟩
/-- none allocates; -/
theorem opss_fresh : (opss : List (List (HloOp τ sig (Elt F)))).Forall fun ops => ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh, hostOps1_14_fresh, hostOps1_15_fresh, hostOps1_16_fresh, hostOps1_17_fresh, hostOps1_18_fresh, hostOps1_19_fresh, hostOps1_20_fresh⟩
/-- none writes an array of the pipeline. -/
theorem opss_keeps : (opss : List (List (HloOp τ sig (Elt F)))).Forall fun ops => ops.Forall fun op => ∀ w, Proc.devRef .tc (Pipeline.arrRef spec0 w) ∉ op.writes :=
  ⟨hostOps1_keeps, hostOps1_1_keeps, hostOps1_2_keeps, hostOps1_3_keeps, hostOps1_4_keeps, hostOps1_5_keeps, hostOps1_6_keeps, hostOps1_7_keeps, hostOps1_8_keeps, hostOps1_9_keeps, hostOps1_10_keeps, hostOps1_11_keeps, hostOps1_12_keeps, hostOps1_13_keeps, hostOps1_14_keeps, hostOps1_15_keeps, hostOps1_16_keeps, hostOps1_17_keeps, hostOps1_18_keeps, hostOps1_19_keeps, hostOps1_20_keeps⟩

/-- The stretches touch the pipeline's arrays and the buffers that bypass the region only: each operation's buffers
    are unscoped TensorCore references, and with nothing prefetched every such reference is one or the other. -/
theorem sfx_sub : ∀ ops ∈ (opss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (List.forall_iff_forall_mem.mp (List.forall_iff_forall_mem.mp opss_sub ops hops) op hop)
/-- They allocate nothing. -/
theorem sfx_fresh : ∀ ops ∈ (opss : List (List (HloOp τ sig (Elt F)))), ∀ op ∈ ops, op.fresh = ∅ :=
  fun ops hops op hop => List.forall_iff_forall_mem.mp (List.forall_iff_forall_mem.mp opss_fresh ops hops) op hop
/-- And they write no array of the pipeline. -/
theorem sfx_keeps : ∀ ops ∈ (opss : List (List (HloOp τ sig (Elt F)))), ∀ op ∈ ops,
    ∀ w, Proc.devRef .tc (Pipeline.arrRef spec0 w) ∉ op.writes :=
  fun ops hops op hop => List.forall_iff_forall_mem.mp (List.forall_iff_forall_mem.mp opss_keeps ops hops) op hop

/-- `@main` is the region followed by the stretches, with nothing before it: holding the unscoped buffers at the
    launch contents it reduces to the region continued by the stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (opss.map StableHlo.seq)) :=
  Pipeline.hmain_around cfgs 0 defs₀ 𝒱₀ m main [] opss trivial trivial (fun c => main_chain c)

/-! ## The windows' blocks and the body -/

/-- The input window's current staging buffer holds its block at every point, fetched there or not: the window
    is an input, never idle and uncut, and the body leaves its block in place. -/
theorem before_in (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- Every index of the block lies in the whole rectangle: the body's one store covers the output's buffer. -/
theorem cover_whole (p : Vec F S1024x2048 .i32) (y : S1024x2048.Idx) :
    ∃ pc ∈ ([⟨whole, p⟩] : List (View.Piece (Elt F) S1024x2048 .i32)), y ∈ pc.1.set := by
  refine ⟨⟨whole, p⟩, List.mem_singleton.mpr rfl, ?_⟩
  show y ∈ (Rect.unit (s := S1024x2048) ![0, 0] S1024x2048.size inb_S1024x2048_S1024x2048_0_0).set
  rw [Rect.mem_set_unit]
  intro a
  have h0 : (![0, 0] : Fin 2 → Nat) a = 0 := by fin_cases a <;> rfl
  exact ⟨by rw [h0]; exact Nat.zero_le _, by rw [h0, Nat.zero_add]; exact (y a).isLt⟩

set_option maxHeartbeats 1000000 in
/-- The kernel body on whole staging memrefs, the input's reading `x0` and the output's holding anything: it loads
    both, stores the comparison of `x0` over the whole output, and reaches its continuation with the input's
    memref as it was and the output's at `out0_1 x0`. The load of the output's buffer is of contents nothing names,
    and the stored value does not depend on it. -/
theorem body_triple (c : Dev nD) (E : Set ℕ) (i : grid0.Coords) (arg2 : Memref sig .tc .vmem S1024x2048 .f32) (harg2 : arg2.IsWhole)
    (arg3 : Memref sig .tc .vmem S1024x2048 .i32) (harg3 : arg3.IsWhole) (x0 : Vec F S1024x2048 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__threshold_kernel i arg2 harg2 arg3 harg3) K := by
  simp only [cc0__threshold_kernel_eq_skeleton]; unfold cc0__threshold_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_whole _)

/-! ## The body obligation -/

/-- What the body is called with at point `t`: the region invariant, what the core owes, and each window's
    current staging buffer at what it holds before the body there, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns: the same, each buffer at what the body leaves there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block, so the body's triple applies; the invariant and
    what the core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (body_triple c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- At the compiled mesh, for any values, from any memory with zero counters: every weakly fair execution of
    `@main` on the TensorCores terminates, and every final state has each array of the pipeline at what the proof
    data's write-backs make of it and every other unscoped buffer as the host stretches after the region leave it. -/
theorem run_main : θ_run defs (onTc (τ := τ) (main (F := F))) (s₀ m ρ) (Pipeline.FramePost cfgs (dats m) 0 (Pipeline.afterTail₀ cfgs (dats m) 0 (V0 m) opss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := opss) (hsub := sfx_sub) (hfresh := sfx_fresh) (hkeep := sfx_keeps)
    (hmain := hmain m Variants.none) (hA := A_eq m) (hΦ := fun _ _ => rfl)

/-- info: 'Cert.Kernel.Hand.run_main' depends on axioms: [propext, Classical.choice, Quot.sound] -/
#guard_msgs in #print axioms run_main

/-- The input matrix ends as launched: it is the array of window 0, an input window, whose array no write-back
    touches; the frame post's clause for the pipeline's arrays gives its final contents as the proof data's array,
    which is the region-entry contents, which is the launch contents since nothing runs before the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).1 0).trans ((dats m 0 c).arrAt_in 0 rfl _)).trans ((A_eq m c 0).trans (V_main_arg0 m c)))
    (run_main m ρ)

end Cert.Kernel.Hand

end
-- ==== Proof.KernelIdealData.lean ====
/-
  The data of the thresholding kernel's one pipelined region, shared by its frame and by its value.

  The region runs a grid of 12 × 6 points; at point `t` the body is handed the `1024 × 2048` block of the input
  matrix at block index `(t / 6, t % 6)` and leaves, in the output's staging buffer, the block of zero/one words
  `x < 0.01` extended to 32 bits, which the pipeline writes back at the same block index. Nothing else is kept
  between points. `@main` has no operation before the region, so the region finds every buffer at its launch
  contents; after it come the host stretches that turn the written array into the index list.
-/
import proofs.«156244_j7541962572511_1_alg».proof.Proof.Gen.KernelIdeal.Launch
import proofs.«156244_j7541962572511_1_alg».proof.Proof.Gen.KernelIdeal.Skeleton
import proofs.«156244_j7541962572511_1_alg».proof.Proof.Gen.KernelIdeal.Points
import Idealize.ShloMosaic.Lib.Pipeline.FrameBody
import Idealize.ShloMosaic.Lib.Pipeline.FrameSuffix

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ)

/-- The host stretches after the region, in program order: the mask recovered from the written words, then the
    index list computed from it. -/
abbrev opss : List (List (HloOp τ sig (Elt F))) :=
  [hostOps1, hostOps1_1, hostOps1_2, hostOps1_3, hostOps1_4, hostOps1_5, hostOps1_6, hostOps1_7, hostOps1_8, hostOps1_9,
    hostOps1_10, hostOps1_11, hostOps1_12, hostOps1_13, hostOps1_14, hostOps1_15, hostOps1_16, hostOps1_17, hostOps1_18,
    hostOps1_19, hostOps1_20]

/-- Core `c`'s buffer contents when the region is entered: no host operation comes first, so the launch contents. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- The input matrix is found as launched. -/
theorem V_main_arg0 (c : Dev nD) : V m c main_arg0 = m ((c : Thread nD τ).loc main_arg0) := rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole staging block, as the rectangle the body loads and stores through. -/
abbrev whole : Rect S1024x2048 := Rect.unit (s := S1024x2048) ![0, 0] S1024x2048.size inb_S1024x2048_S1024x2048_0_0

/-- What the body leaves in the output's staging buffer, from the input block: its one store, of the comparison's
    words, over the whole block. -/
def out0_1 (x0 : Vec F S1024x2048 .f32) : Vec F S1024x2048 .i32 :=
  View.canon [⟨whole, k0_pay1 (View.ld x0 whole)⟩]

/-- The proof data of the pipeline on core `c`: the arrays as launched; after the body at point `t` the input's
    buffer still at its block and the output's at the comparison of that block; the region invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

end Cert.KernelIdeal.Hand

end
-- ==== Proof.KernelIdealFrame.lean ====
/-
  The frame run of the thresholding kernel's program: the one pipelined region, then the host stretches that turn
  the written array into the index list.

  `@main` begins with the region and goes on with 129 host operations in 21 stretches. None of them allocates, each
  touches only unscoped TensorCore buffers, and none writes the input matrix or the array the region writes (the
  first stretch reads that array and writes buffers of its own). The body at a grid point loads the whole input
  block, also loads the whole output block — a value nothing stored depends on — and stores the comparison's words
  over the whole output block; so it leaves the input's buffer as found and the output's at a closed function of
  the input block, whatever the output's buffer held. With these the library's launch theorem for a region
  followed by host lines runs `@main` to its frame post, and the input matrix, an input window's array, is read
  off that post unchanged.
-/
import proofs.«156244_j7541962572511_1_alg».proof.Proof.KernelIdealData
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host stretches after the region

Stretch by stretch: no operation allocates a buffer (`…_fresh`), and none writes the input matrix or the array the
region writes (`…_keeps`): each operation writes only its own result buffer, and that is neither of the two. -/

theorem hostOps1_fresh : (hostOps1 : List (HloOp τ sig (Elt F))).Forall fun op => op.fresh = ∅ := by
  simp only [List.Forall]; repeat' constructor
theorem hostOps1_keeps : (hostOps1 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_fresh : (hostOps1_1 : List (HloOp τ sig (Elt F))).Forall fun op => op.fresh = ∅ := by
  simp only [List.Forall]; repeat' constructor
theorem hostOps1_1_keeps : (hostOps1_1 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_fresh : (hostOps1_2 : List (HloOp τ sig (Elt F))).Forall fun op => op.fresh = ∅ := by
  simp only [List.Forall]; repeat' constructor
theorem hostOps1_2_keeps : (hostOps1_2 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_fresh : (hostOps1_3 : List (HloOp τ sig (Elt F))).Forall fun op => op.fresh = ∅ := by
  simp only [List.Forall]; repeat' constructor
theorem hostOps1_3_keeps : (hostOps1_3 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_fresh : (hostOps1_4 : List (HloOp τ sig (Elt F))).Forall fun op => op.fresh = ∅ := by
  simp only [List.Forall]; repeat' constructor
theorem hostOps1_4_keeps : (hostOps1_4 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_5_fresh : (hostOps1_5 : List (HloOp τ sig (Elt F))).Forall fun op => op.fresh = ∅ := by
  simp only [List.Forall]; repeat' constructor
theorem hostOps1_5_keeps : (hostOps1_5 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_6_fresh : (hostOps1_6 : List (HloOp τ sig (Elt F))).Forall fun op => op.fresh = ∅ := by
  simp only [List.Forall]; repeat' constructor
theorem hostOps1_6_keeps : (hostOps1_6 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_7_fresh : (hostOps1_7 : List (HloOp τ sig (Elt F))).Forall fun op => op.fresh = ∅ := by
  simp only [List.Forall]; repeat' constructor
theorem hostOps1_7_keeps : (hostOps1_7 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_8_fresh : (hostOps1_8 : List (HloOp τ sig (Elt F))).Forall fun op => op.fresh = ∅ := by
  simp only [List.Forall]; repeat' constructor
theorem hostOps1_8_keeps : (hostOps1_8 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_9_fresh : (hostOps1_9 : List (HloOp τ sig (Elt F))).Forall fun op => op.fresh = ∅ := by
  simp only [List.Forall]; repeat' constructor
theorem hostOps1_9_keeps : (hostOps1_9 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_10_fresh : (hostOps1_10 : List (HloOp τ sig (Elt F))).Forall fun op => op.fresh = ∅ := by
  simp only [List.Forall]; repeat' constructor
theorem hostOps1_10_keeps : (hostOps1_10 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_11_fresh : (hostOps1_11 : List (HloOp τ sig (Elt F))).Forall fun op => op.fresh = ∅ := by
  simp only [List.Forall]; repeat' constructor
theorem hostOps1_11_keeps : (hostOps1_11 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_12_fresh : (hostOps1_12 : List (HloOp τ sig (Elt F))).Forall fun op => op.fresh = ∅ := by
  simp only [List.Forall]; repeat' constructor
theorem hostOps1_12_keeps : (hostOps1_12 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_13_fresh : (hostOps1_13 : List (HloOp τ sig (Elt F))).Forall fun op => op.fresh = ∅ := by
  simp only [List.Forall]; repeat' constructor
theorem hostOps1_13_keeps : (hostOps1_13 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_14_fresh : (hostOps1_14 : List (HloOp τ sig (Elt F))).Forall fun op => op.fresh = ∅ := by
  simp only [List.Forall]; repeat' constructor
theorem hostOps1_14_keeps : (hostOps1_14 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_15_fresh : (hostOps1_15 : List (HloOp τ sig (Elt F))).Forall fun op => op.fresh = ∅ := by
  simp only [List.Forall]; repeat' constructor
theorem hostOps1_15_keeps : (hostOps1_15 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_16_fresh : (hostOps1_16 : List (HloOp τ sig (Elt F))).Forall fun op => op.fresh = ∅ := by
  simp only [List.Forall]; repeat' constructor
theorem hostOps1_16_keeps : (hostOps1_16 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_17_fresh : (hostOps1_17 : List (HloOp τ sig (Elt F))).Forall fun op => op.fresh = ∅ := by
  simp only [List.Forall]; repeat' constructor
theorem hostOps1_17_keeps : (hostOps1_17 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_18_fresh : (hostOps1_18 : List (HloOp τ sig (Elt F))).Forall fun op => op.fresh = ∅ := by
  simp only [List.Forall]; repeat' constructor
theorem hostOps1_18_keeps : (hostOps1_18 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_19_fresh : (hostOps1_19 : List (HloOp τ sig (Elt F))).Forall fun op => op.fresh = ∅ := by
  simp only [List.Forall]; repeat' constructor
theorem hostOps1_19_keeps : (hostOps1_19 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_20_fresh : (hostOps1_20 : List (HloOp τ sig (Elt F))).Forall fun op => op.fresh = ∅ := by
  simp only [List.Forall]; repeat' constructor
theorem hostOps1_20_keeps : (hostOps1_20 : List (HloOp τ sig (Elt F))).Forall fun op => ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- Every operation of every stretch touches TensorCore references only; -/
theorem opss_sub : (opss : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub⟩
/-- none allocates; -/
theorem opss_fresh : (opss : List (List (HloOp τ sig (Elt F)))).Forall fun ops => ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh, hostOps1_14_fresh, hostOps1_15_fresh, hostOps1_16_fresh, hostOps1_17_fresh, hostOps1_18_fresh, hostOps1_19_fresh, hostOps1_20_fresh⟩
/-- none writes an array of the pipeline. -/
theorem opss_keeps : (opss : List (List (HloOp τ sig (Elt F)))).Forall fun ops => ops.Forall fun op => ∀ w, Proc.devRef .tc (Pipeline.arrRef spec0 w) ∉ op.writes :=
  ⟨hostOps1_keeps, hostOps1_1_keeps, hostOps1_2_keeps, hostOps1_3_keeps, hostOps1_4_keeps, hostOps1_5_keeps, hostOps1_6_keeps, hostOps1_7_keeps, hostOps1_8_keeps, hostOps1_9_keeps, hostOps1_10_keeps, hostOps1_11_keeps, hostOps1_12_keeps, hostOps1_13_keeps, hostOps1_14_keeps, hostOps1_15_keeps, hostOps1_16_keeps, hostOps1_17_keeps, hostOps1_18_keeps, hostOps1_19_keeps, hostOps1_20_keeps⟩

/-- The stretches touch the pipeline's arrays and the buffers that bypass the region only: each operation's buffers
    are unscoped TensorCore references, and with nothing prefetched every such reference is one or the other. -/
theorem sfx_sub : ∀ ops ∈ (opss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (List.forall_iff_forall_mem.mp (List.forall_iff_forall_mem.mp opss_sub ops hops) op hop)
/-- They allocate nothing. -/
theorem sfx_fresh : ∀ ops ∈ (opss : List (List (HloOp τ sig (Elt F)))), ∀ op ∈ ops, op.fresh = ∅ :=
  fun ops hops op hop => List.forall_iff_forall_mem.mp (List.forall_iff_forall_mem.mp opss_fresh ops hops) op hop
/-- And they write no array of the pipeline. -/
theorem sfx_keeps : ∀ ops ∈ (opss : List (List (HloOp τ sig (Elt F)))), ∀ op ∈ ops,
    ∀ w, Proc.devRef .tc (Pipeline.arrRef spec0 w) ∉ op.writes :=
  fun ops hops op hop => List.forall_iff_forall_mem.mp (List.forall_iff_forall_mem.mp opss_keeps ops hops) op hop

/-- `@main` is the region followed by the stretches, with nothing before it: holding the unscoped buffers at the
    launch contents it reduces to the region continued by the stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (opss.map StableHlo.seq)) :=
  Pipeline.hmain_around cfgs 0 defs₀ 𝒱₀ m main [] opss trivial trivial (fun c => main_chain c)

/-! ## The windows' blocks and the body -/

/-- The input window's current staging buffer holds its block at every point, fetched there or not: the window
    is an input, never idle and uncut, and the body leaves its block in place. -/
theorem before_in (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- Every index of the block lies in the whole rectangle: the body's one store covers the output's buffer. -/
theorem cover_whole (p : Vec F S1024x2048 .i32) (y : S1024x2048.Idx) :
    ∃ pc ∈ ([⟨whole, p⟩] : List (View.Piece (Elt F) S1024x2048 .i32)), y ∈ pc.1.set := by
  refine ⟨⟨whole, p⟩, List.mem_singleton.mpr rfl, ?_⟩
  show y ∈ (Rect.unit (s := S1024x2048) ![0, 0] S1024x2048.size inb_S1024x2048_S1024x2048_0_0).set
  rw [Rect.mem_set_unit]
  intro a
  have h0 : (![0, 0] : Fin 2 → Nat) a = 0 := by fin_cases a <;> rfl
  exact ⟨by rw [h0]; exact Nat.zero_le _, by rw [h0, Nat.zero_add]; exact (y a).isLt⟩

set_option maxHeartbeats 1000000 in
/-- The kernel body on whole staging memrefs, the input's reading `x0` and the output's holding anything: it loads
    both, stores the comparison of `x0` over the whole output, and reaches its continuation with the input's
    memref as it was and the output's at `out0_1 x0`. The load of the output's buffer is of contents nothing names,
    and the stored value does not depend on it. -/
theorem body_triple (c : Dev nD) (E : Set ℕ) (i : grid0.Coords) (arg2 : Memref sig .tc .vmem S1024x2048 .f32) (harg2 : arg2.IsWhole)
    (arg3 : Memref sig .tc .vmem S1024x2048 .i32) (harg3 : arg3.IsWhole) (x0 : Vec F S1024x2048 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__threshold_kernel i arg2 harg2 arg3 harg3) K := by
  simp only [cc0__threshold_kernel_eq_skeleton]; unfold cc0__threshold_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_whole _)

/-! ## The body obligation -/

/-- What the body is called with at point `t`: the region invariant, what the core owes, and each window's
    current staging buffer at what it holds before the body there, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns: the same, each buffer at what the body leaves there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block, so the body's triple applies; the invariant and
    what the core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (body_triple c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- At the compiled mesh, for any values, from any memory with zero counters: every weakly fair execution of
    `@main` on the TensorCores terminates, and every final state has each array of the pipeline at what the proof
    data's write-backs make of it and every other unscoped buffer as the host stretches after the region leave it. -/
theorem run_main : θ_run defs (onTc (τ := τ) (main (F := F))) (s₀ m ρ) (Pipeline.FramePost cfgs (dats m) 0 (Pipeline.afterTail₀ cfgs (dats m) 0 (V0 m) opss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := opss) (hsub := sfx_sub) (hfresh := sfx_fresh) (hkeep := sfx_keeps)
    (hmain := hmain m Variants.none) (hA := A_eq m) (hΦ := fun _ _ => rfl)

/-- info: 'Cert.KernelIdeal.Hand.run_main' depends on axioms: [propext, Classical.choice, Quot.sound] -/
#guard_msgs in #print axioms run_main

/-- The input matrix ends as launched: it is the array of window 0, an input window, whose array no write-back
    touches; the frame post's clause for the pipeline's arrays gives its final contents as the proof data's array,
    which is the region-entry contents, which is the launch contents since nothing runs before the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).1 0).trans ((dats m 0 c).arrAt_in 0 rfl _)).trans ((A_eq m c 0).trans (V_main_arg0 m c)))
    (run_main m ρ)

end Cert.KernelIdeal.Hand

end
-- ==== Proof.Argwhere.lean ====
/-
  The index list of a boolean matrix, as pure functions: what `jnp.argwhere(mask, size = 3200000, fill_value = -1)`
  computes from a mask of shape 12288 × 12288, stated once and independently of any program.

  Flatten the mask row-major to length 150994944 and take its running count `cs` (an inclusive prefix sum, as a
  windowed sum over a left padding). Every flat position `p` adds one to slot `cs p` (clipped at zero, wrapped
  if negative) of a histogram of length 3200000; out-of-range slots are dropped by the scatter. The running sum
  `first` of that histogram is, at output slot `k`, the number of flat positions whose running count is at most
  `k`: the flat position of the `(k+1)`-st set entry. Its floor-quotient and remainder by 12288 are that entry's
  row and column. Slots at or past the total count of set entries are filled with `-1`. The two columns are then
  stacked, transposed to `3200000 × 2`, and sliced apart again.

  Both programs of the certificate end in exactly this computation on their masks; the certificate proves the
  masks equal and never opens these functions.
-/
import Idealize.ShloMosaic.Lib.StableHlo
import Idealize.ShloMosaic.PureOps

noncomputable section

namespace Cert.Argwhere

open Idealize.ShloMosaic

/-- The mask's shape, a scalar, the flattened mask, the output length, and the layouts between. -/
abbrev SM : Shape := ⟨2, ![12288, 12288]⟩
abbrev S0 : Shape := ⟨0, ![]⟩
abbrev SF : Shape := ⟨1, ![150994944]⟩
abbrev SE : Shape := ⟨1, ![3200000]⟩
abbrev SFc : Shape := ⟨2, ![150994944, 1]⟩
abbrev SE1 : Shape := ⟨2, ![1, 3200000]⟩
abbrev SE2 : Shape := ⟨2, ![2, 3200000]⟩
abbrev SEt : Shape := ⟨2, ![3200000, 2]⟩
abbrev SEc : Shape := ⟨2, ![3200000, 1]⟩

/-! ## The shape relations the operations take -/

theorem natLt_1_32 : 1 < 32 := by decide
theorem h_S0 : 0 < S0.numel := by decide
theorem flat_SM_SF : SM.ShapeCasts SF := by decide
theorem bcast_S0_S0 : S0.BroadcastsInDim S0 (![] : Fin 0 → Fin S0.rank) := by decide
theorem bcast_S0_SF : S0.BroadcastsInDim SF (![] : Fin 0 → Fin SF.rank) := by decide
theorem bcast_S0_SE : S0.BroadcastsInDim SE (![] : Fin 0 → Fin SE.rank) := by decide
theorem bcast_SF_SFc : SF.BroadcastsInDim SFc (![0] : Fin 1 → Fin SFc.rank) := by decide
theorem bcast_SE_SE1 : SE.BroadcastsInDim SE1 (![1] : Fin 1 → Fin SE1.rank) := by decide
theorem window_SF : SF.ReduceWindows (![150994944] : Fin 1 → Nat) ![1] ![150994943] ![0] SF := by decide
theorem window_SE : SE.ReduceWindows (![3200000] : Fin 1 → Nat) ![1] ![3199999] ![0] SE := by decide
theorem reduces_SM_S0 : SM.ReducesTo [0, 1] S0 := by decide
theorem concat_SE1_SE2 : Shape.Concatenates [SE1, SE1] SE2 0 := by decide
theorem transposes_SE2_SEt : SE2.Transposes [1, 0] SEt := by decide
theorem slices_SEt_SEc_0 : SEt.Slices ![0, 0] SEc := by decide
theorem slices_SEt_SEc_1 : SEt.Slices ![0, 1] SEc := by decide
theorem flat_SEc_SE : SEc.ShapeCasts SE := by decide
theorem histDims_wf : ScatterDims.WF SE SFc SF [] [0] [0] 1 := by decide

/-- One scalar index per update, written into axis 0 of the histogram. -/
def histDims : ScatterDims SE SFc SF where
  updateWindowDims := []
  insertedWindowDims := [0]
  scatterDimsToOperandDims := [0]
  indexVectorDim := 1
  wf := histDims_wf

/-- An integer scalar. -/
abbrev lit (w : BitVec 32) : IVec S0 32 := constantI S0 32 w

/-! ## The pieces -/

/-- The running count of set entries over the row-major flattening: position `p` holds the number of set
    entries at flat positions `≤ p`. -/
def runningCount (mask : IVec SM 1) : IVec SF 32 :=
  Host.reduceWindow IntOp.addi ![150994944] ![1] ![150994943] ![0]
    (extui 32 (fun i => shapeCast SF mask flat_SM_SF i) natLt_1_32)
    (broadcastInDim S0 ![] bcast_S0_S0 (lit 0#32)) window_SF h_S0

/-- `max(lo, x)`, the lower clip. -/
def clipBelow (x : IVec SF 32) (lo : IVec S0 32) : IVec SF 32 :=
  maxsi (broadcastInDim SF ![] bcast_S0_SF (id lo)) x

/-- The histogram of running counts: slot `k` counts the flat positions whose (clipped, wrapped) running count
    is `k`. -/
def countHistogram (cs : IVec SF 32) : IVec SE 32 :=
  (fun x i u => Host.scatter histDims IntOp.addi x i u)
    (broadcastInDim SE ![] bcast_S0_SE (lit 0#32))
    (broadcastInDim SFc ![0] bcast_SF_SFc
      (select (cmpi .slt cs (broadcastInDim SF ![] bcast_S0_SF (lit 0#32)))
        (addi cs (broadcastInDim SF ![] bcast_S0_SF (lit 3200000#32))) cs))
    (broadcastInDim SF ![] bcast_S0_SF (lit 1#32))

/-- The running sum of the histogram: at slot `k`, the flat position of the `(k+1)`-st set entry. -/
def firstPositions (h : IVec SE 32) : IVec SE 32 :=
  Host.reduceWindow IntOp.addi ![3200000] ![1] ![3199999] ![0] h
    (broadcastInDim S0 ![] bcast_S0_S0 (lit 0#32)) window_SE h_S0

/-- Floor division by a scalar: the truncating quotient, less one where the signs differ and the division is
    inexact. -/
def floorDiv (x : IVec SE 32) (d : IVec S0 32) : IVec SE 32 :=
  select
    (andi (cmpi .ne (signi x) (broadcastInDim SE ![] bcast_S0_SE (signi d)))
      (cmpi .ne (Host.remsi x (broadcastInDim SE ![] bcast_S0_SE d)) (broadcastInDim SE ![] bcast_S0_SE (lit 0#32))))
    (subi (Host.divsi x (broadcastInDim SE ![] bcast_S0_SE d)) (broadcastInDim SE ![] bcast_S0_SE (lit 1#32)))
    (Host.divsi x (broadcastInDim SE ![] bcast_S0_SE d))

/-- The divisor a remainder is taken by: `1` in place of `0`. -/
def safeDivisor (d : IVec S0 32) : IVec S0 32 :=
  select (cmpi .eq (id d) (lit 0#32)) (lit 1#32) (id d)

/-- The remainder with the divisor's sign: the truncating remainder, plus the divisor where it is nonzero and
    of the other sign. -/
def floorMod (x : IVec SE 32) (d : IVec S0 32) : IVec SE 32 :=
  select
    (andi
      (cmpi .ne
        (cmpi .slt (Host.remsi x (broadcastInDim SE ![] bcast_S0_SE (safeDivisor d))) (broadcastInDim SE ![] bcast_S0_SE (lit 0#32)))
        (broadcastInDim SE ![] bcast_S0_SE (cmpi .slt (safeDivisor d) (lit 0#32))))
      (cmpi .ne (Host.remsi x (broadcastInDim SE ![] bcast_S0_SE (safeDivisor d))) (broadcastInDim SE ![] bcast_S0_SE (lit 0#32))))
    (addi (Host.remsi x (broadcastInDim SE ![] bcast_S0_SE (safeDivisor d))) (broadcastInDim SE ![] bcast_S0_SE (safeDivisor d)))
    (Host.remsi x (broadcastInDim SE ![] bcast_S0_SE (safeDivisor d)))

/-- The slots at or past the number of set entries. -/
def pastCount (mask : IVec SM 1) : IVec SE 1 :=
  cmpi .sge (iotaInDim SE 32 0)
    (broadcastInDim SE ![] bcast_S0_SE
      ((fun x v => Host.reduce IntOp.addi x v reduces_SM_S0 h_S0) (extui 32 mask natLt_1_32) (lit 0#32)))

/-- A scalar where the condition holds, the vector elsewhere. -/
def fillWhere (c : IVec SE 1) (a : IVec S0 32) (b : IVec SE 32) : IVec SE 32 :=
  select c (broadcastInDim SE ![] bcast_S0_SE (id a)) b

/-- Flat positions of the set entries, slot by slot. -/
def positions (mask : IVec SM 1) : IVec SE 32 :=
  firstPositions (countHistogram (clipBelow (runningCount mask) (lit 0#32)))

/-- Row indices (before the fill): the flat position's floor-quotient by the row length, reduced by the number of rows. -/
def rowOf (mask : IVec SM 1) : IVec SE 32 := floorMod (floorDiv (positions mask) (lit 12288#32)) (lit 12288#32)
/-- Column indices (before the fill): the flat position reduced by the row length. -/
def colOf (mask : IVec SM 1) : IVec SE 32 := floorMod (floorDiv (positions mask) (lit 1#32)) (lit 12288#32)

/-- The two index columns side by side, one row per slot. -/
def pairs (mask : IVec SM 1) : IVec SEt 32 :=
  (transpose SEt [1, 0] · transposes_SE2_SEt)
    ((fun a b => concatenate SE2 0 [⟨SE1, a⟩, ⟨SE1, b⟩] concat_SE1_SE2)
      (broadcastInDim SE1 ![1] bcast_SE_SE1 (fillWhere (pastCount mask) (lit 4294967295#32) (rowOf mask)))
      (broadcastInDim SE1 ![1] bcast_SE_SE1 (fillWhere (pastCount mask) (lit 4294967295#32) (colOf mask))))

/-- The row indices of the set entries in row-major order, `-1` past their number. -/
def rows (mask : IVec SM 1) : IVec SE 32 :=
  fun i => shapeCast SE ((extractStridedSlice SEc ![0, 0] · slices_SEt_SEc_0) (pairs mask)) flat_SEc_SE i
/-- The column indices of the set entries in row-major order, `-1` past their number. -/
def cols (mask : IVec SM 1) : IVec SE 32 :=
  fun i => shapeCast SE ((extractStridedSlice SEc ![0, 1] · slices_SEt_SEc_1) (pairs mask)) flat_SEc_SE i

end Cert.Argwhere

end
-- ==== Proof.KernelIdealTail.lean ====
/-
  The value of the kernel program's host tail, for any contents the pipelined region may leave.

  After the region the program compares the written words with zero, which gives back the boolean mask, and then
  computes the mask's index list: the running count of set entries over the row-major flattening, its clip at
  zero, the histogram of the counts, the histogram's running sum (the flat position of each set entry), that
  position's row and column by floor quotient and remainder, the fill with minus one past the number of set
  entries, and the two columns stacked, transposed and sliced apart. The operations are taken in ten groups in
  program order; each group's fold is a function of the buffers it reads, and the groups composed are
  `Cert.Argwhere.rows` and `Cert.Argwhere.cols` of the mask. The input matrix is written by none of them.
-/
import proofs.«156244_j7541962572511_1_alg».proof.Proof.KernelIdealData
import proofs.«156244_j7541962572511_1_alg».proof.Proof.Argwhere
import Idealize.ShloMosaic.Lib.StableHlo.Run

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.KernelIdeal Cert.KernelIdeal.Gen
open Idealize.ShloMosaic.StableHlo

variable {F : FTy → Type} [FloatOps F]

/-- the mask the host recovers from the written words -/
def maskOf (k : IVec S12288x12288 32) : IVec S12288x12288 1 :=
  id (cmpi .ne k (broadcastInDim S12288x12288 ![] bcast_S_S12288x12288 (constantI S_ 32 0#32)))

open Cert.Argwhere (SF SE SFc SEc SEt SE1 SE2 slices_SEt_SEc_0 slices_SEt_SEc_1 transposes_SE2_SEt concat_SE1_SE2
  bcast_SE_SE1 bcast_S0_SE bcast_S0_SF bcast_SF_SFc flat_SEc_SE histDims lit floorDiv floorMod runningCount clipBelow
  firstPositions pastCount fillWhere)

/-! ## The stretches, grouped by what they compute -/

/-- The comparison of the written words against zero. -/
def tailMask : List (HloOp τ sig (Elt F)) := hostOps1
/-- The running count of set entries over the flattened mask. -/
def tailCount : List (HloOp τ sig (Elt F)) := hostOps1_1
/-- The zero histogram, and the running count clipped below at zero. -/
def tailClip : List (HloOp τ sig (Elt F)) := hostOps1_2 ++ hostOps1_3
/-- The histogram of the clipped counts. -/
def tailHistogram : List (HloOp τ sig (Elt F)) := hostOps1_4
/-- The histogram's running sum. -/
def tailPositions : List (HloOp τ sig (Elt F)) := hostOps1_5
/-- Floor quotient by the row length, then the remainder by the number of rows. -/
def tailRow : List (HloOp τ sig (Elt F)) := hostOps1_6 ++ (hostOps1_7 ++ (hostOps1_8 ++ hostOps1_9))
/-- Floor quotient by one, then the remainder by the row length. -/
def tailCol : List (HloOp τ sig (Elt F)) := hostOps1_10 ++ (hostOps1_11 ++ (hostOps1_12 ++ hostOps1_13))
/-- The slots at or past the total count, and the fill value. -/
def tailPast : List (HloOp τ sig (Elt F)) := hostOps1_14
/-- The two fills with minus one. -/
def tailFill : List (HloOp τ sig (Elt F)) := hostOps1_15 ++ (hostOps1_16 ++ hostOps1_17)
/-- The stacking of the two columns, the transposition and the two slices. -/
def tailPairs : List (HloOp τ sig (Elt F)) := hostOps1_18 ++ (hostOps1_19 ++ hostOps1_20)

/-- The stretches in program order are the ten groups in order: both sides are the same list of operations. -/
theorem opss_flatten :
    (opss (F := F)).flatten
      = tailMask ++ (tailCount ++ (tailClip ++ (tailHistogram ++ (tailPositions ++ (tailRow ++ (tailCol ++ (tailPast ++
          (tailFill ++ tailPairs)))))))) :=
  rfl

section Groups

attribute [local irreducible] Host.reduce Host.reduceWindow Host.scatter Host.divsi Host.remsi concatenate transpose
  extractStridedSlice shapeCast broadcastInDim iotaInDim

/-! Each group's fold, read at the buffers it produces and at the earlier buffers later groups still read. An
operation's result at the buffer it writes is its function of its operands' contents, and at any other buffer
what was there; the typed references of the callee operations are literal references, so their transports are
identities. The groups are cut at the buffers a later group reads: each lemma states one group's value as a
function of the contents it finds there. -/

set_option maxRecDepth 8192 in
theorem tailMask_v3 (V : Valuation τ sig (Elt F)) :
    after (tailMask (F := F)) V (main_v3 : DevRef τ sig)
      = maskOf (V (main_v0 : DevRef τ sig)) := by
  delta tailMask
  simp only [after_cons, after_nil]
  rfl

set_option maxRecDepth 8192 in
theorem tailCount_v5 (V : Valuation τ sig (Elt F)) :
    after (tailCount (F := F)) V (main_v5 : DevRef τ sig)
      = runningCount (V (main_v3 : DevRef τ sig)) := by
  delta tailCount
  simp only [after_cons, after_nil]
  rfl

set_option maxRecDepth 8192 in
theorem tailCount_v3 (V : Valuation τ sig (Elt F)) :
    after (tailCount (F := F)) V (main_v3 : DevRef τ sig) = V (main_v3 : DevRef τ sig) := by
  delta tailCount
  simp only [after_cons, after_nil]
  rfl

set_option maxRecDepth 8192 in
theorem tailClip_v7 (V : Valuation τ sig (Elt F)) :
    after (tailClip (F := F)) V (main_v7 : DevRef τ sig)
      = clipBelow (V (main_v5 : DevRef τ sig)) (lit 0#32) := by
  delta tailClip
  simp only [List.cons_append, List.nil_append, after_cons, after_nil]
  rfl

set_option maxRecDepth 8192 in
theorem tailClip_v6 (V : Valuation τ sig (Elt F)) :
    after (tailClip (F := F)) V (main_v6 : DevRef τ sig)
      = broadcastInDim SE ![] bcast_S0_SE (lit 0#32) := by
  delta tailClip
  simp only [List.cons_append, List.nil_append, after_cons, after_nil]
  rfl

set_option maxRecDepth 8192 in
theorem tailClip_v3 (V : Valuation τ sig (Elt F)) :
    after (tailClip (F := F)) V (main_v3 : DevRef τ sig) = V (main_v3 : DevRef τ sig) := by
  delta tailClip
  simp only [List.cons_append, List.nil_append, after_cons, after_nil]
  rfl

set_option maxRecDepth 16384 in
/-- The histogram: the scatter of ones into the given histogram at the given counts, a negative count first wrapped
    by the histogram's length. -/
theorem tailHistogram_v15 (V : Valuation τ sig (Elt F)) :
    after (tailHistogram (F := F)) V (main_v15 : DevRef τ sig)
      = (fun x i u => Host.scatter histDims IntOp.addi x i u) (V (main_v6 : DevRef τ sig))
          (broadcastInDim SFc ![0] bcast_SF_SFc
            (select (cmpi .slt (V (main_v7 : DevRef τ sig)) (broadcastInDim SF ![] bcast_S0_SF (lit 0#32)))
              (addi (V (main_v7 : DevRef τ sig)) (broadcastInDim SF ![] bcast_S0_SF (lit 3200000#32))) (V (main_v7 : DevRef τ sig))))
          (broadcastInDim SF ![] bcast_S0_SF (lit 1#32)) := by
  delta tailHistogram
  after_results
  rfl

set_option maxRecDepth 8192 in
theorem tailHistogram_v3 (V : Valuation τ sig (Elt F)) :
    after (tailHistogram (F := F)) V (main_v3 : DevRef τ sig) = V (main_v3 : DevRef τ sig) := by
  delta tailHistogram
  simp only [after_cons, after_nil]
  rfl

set_option maxRecDepth 8192 in
theorem tailPositions_v16 (V : Valuation τ sig (Elt F)) :
    after (tailPositions (F := F)) V (main_v16 : DevRef τ sig)
      = firstPositions (V (main_v15 : DevRef τ sig)) := by
  delta tailPositions
  simp only [after_cons, after_nil]
  rfl

set_option maxRecDepth 8192 in
theorem tailPositions_v3 (V : Valuation τ sig (Elt F)) :
    after (tailPositions (F := F)) V (main_v3 : DevRef τ sig) = V (main_v3 : DevRef τ sig) := by
  delta tailPositions
  simp only [after_cons, after_nil]
  rfl

set_option maxRecDepth 8192 in
set_option maxHeartbeats 400000 in
theorem tailRow_v18 (V : Valuation τ sig (Elt F)) :
    after (tailRow (F := F)) V (main_v18 : DevRef τ sig)
      = floorMod (floorDiv (V (main_v16 : DevRef τ sig)) (lit 12288#32)) (lit 12288#32) := by
  delta tailRow
  simp only [List.cons_append, List.nil_append, after_cons, after_nil]
  rfl

set_option maxRecDepth 8192 in
theorem tailRow_v16 (V : Valuation τ sig (Elt F)) :
    after (tailRow (F := F)) V (main_v16 : DevRef τ sig) = V (main_v16 : DevRef τ sig) := by
  delta tailRow
  simp only [List.cons_append, List.nil_append, after_cons, after_nil]
  rfl

set_option maxRecDepth 8192 in
theorem tailRow_v3 (V : Valuation τ sig (Elt F)) :
    after (tailRow (F := F)) V (main_v3 : DevRef τ sig) = V (main_v3 : DevRef τ sig) := by
  delta tailRow
  simp only [List.cons_append, List.nil_append, after_cons, after_nil]
  rfl

set_option maxRecDepth 8192 in
set_option maxHeartbeats 400000 in
theorem tailCol_v20 (V : Valuation τ sig (Elt F)) :
    after (tailCol (F := F)) V (main_v20 : DevRef τ sig)
      = floorMod (floorDiv (V (main_v16 : DevRef τ sig)) (lit 1#32)) (lit 12288#32) := by
  delta tailCol
  simp only [List.cons_append, List.nil_append, after_cons, after_nil]
  rfl

set_option maxRecDepth 8192 in
theorem tailCol_v18 (V : Valuation τ sig (Elt F)) :
    after (tailCol (F := F)) V (main_v18 : DevRef τ sig) = V (main_v18 : DevRef τ sig) := by
  delta tailCol
  simp only [List.cons_append, List.nil_append, after_cons, after_nil]
  rfl

set_option maxRecDepth 8192 in
theorem tailCol_v3 (V : Valuation τ sig (Elt F)) :
    after (tailCol (F := F)) V (main_v3 : DevRef τ sig) = V (main_v3 : DevRef τ sig) := by
  delta tailCol
  simp only [List.cons_append, List.nil_append, after_cons, after_nil]
  rfl

set_option maxRecDepth 16384 in
theorem tailPast_v25 (V : Valuation τ sig (Elt F)) :
    after (tailPast (F := F)) V (main_v25 : DevRef τ sig)
      = pastCount (V (main_v3 : DevRef τ sig)) := by
  delta tailPast
  after_results
  rfl

set_option maxRecDepth 8192 in
theorem tailPast_c10 (V : Valuation τ sig (Elt F)) :
    after (tailPast (F := F)) V (main_c_10 : DevRef τ sig)
      = lit 4294967295#32 := by
  delta tailPast
  simp only [after_cons, after_nil]
  rfl

set_option maxRecDepth 8192 in
theorem tailPast_v18 (V : Valuation τ sig (Elt F)) :
    after (tailPast (F := F)) V (main_v18 : DevRef τ sig) = V (main_v18 : DevRef τ sig) := by
  delta tailPast
  simp only [after_cons, after_nil]
  rfl

set_option maxRecDepth 8192 in
theorem tailPast_v20 (V : Valuation τ sig (Elt F)) :
    after (tailPast (F := F)) V (main_v20 : DevRef τ sig) = V (main_v20 : DevRef τ sig) := by
  delta tailPast
  simp only [after_cons, after_nil]
  rfl

set_option maxRecDepth 8192 in
theorem tailFill_v26 (V : Valuation τ sig (Elt F)) :
    after (tailFill (F := F)) V (main_v26 : DevRef τ sig)
      = fillWhere (V (main_v25 : DevRef τ sig)) (V (main_c_10 : DevRef τ sig)) (V (main_v18 : DevRef τ sig)) := by
  delta tailFill
  simp only [List.cons_append, List.nil_append, after_cons, after_nil]
  rfl

set_option maxRecDepth 8192 in
theorem tailFill_v27 (V : Valuation τ sig (Elt F)) :
    after (tailFill (F := F)) V (main_v27 : DevRef τ sig)
      = fillWhere (V (main_v25 : DevRef τ sig)) (lit 4294967295#32) (V (main_v20 : DevRef τ sig)) := by
  delta tailFill
  simp only [List.cons_append, List.nil_append, after_cons, after_nil]
  rfl

set_option maxRecDepth 8192 in
theorem tailPairs_v33 (V : Valuation τ sig (Elt F)) :
    after (tailPairs (F := F)) V (main_v33 : DevRef τ sig)
      = fun i => shapeCast SE ((extractStridedSlice SEc ![0, 0] · slices_SEt_SEc_0)
          ((transpose SEt [1, 0] · transposes_SE2_SEt)
            ((fun a b => concatenate SE2 0 [⟨SE1, a⟩, ⟨SE1, b⟩] concat_SE1_SE2)
              (broadcastInDim SE1 ![1] bcast_SE_SE1 (V (main_v26 : DevRef τ sig)))
              (broadcastInDim SE1 ![1] bcast_SE_SE1 (V (main_v27 : DevRef τ sig)))))) flat_SEc_SE i := by
  delta tailPairs
  simp only [List.cons_append, List.nil_append, after_cons, after_nil]
  rfl

set_option maxRecDepth 8192 in
theorem tailPairs_v35 (V : Valuation τ sig (Elt F)) :
    after (tailPairs (F := F)) V (main_v35 : DevRef τ sig)
      = fun i => shapeCast SE ((extractStridedSlice SEc ![0, 1] · slices_SEt_SEc_1)
          ((transpose SEt [1, 0] · transposes_SE2_SEt)
            ((fun a b => concatenate SE2 0 [⟨SE1, a⟩, ⟨SE1, b⟩] concat_SE1_SE2)
              (broadcastInDim SE1 ![1] bcast_SE_SE1 (V (main_v26 : DevRef τ sig)))
              (broadcastInDim SE1 ![1] bcast_SE_SE1 (V (main_v27 : DevRef τ sig)))))) flat_SEc_SE i := by
  delta tailPairs
  simp only [List.cons_append, List.nil_append, after_cons, after_nil]
  rfl

/-! ## The tail's value -/

set_option maxRecDepth 8192 in
set_option maxHeartbeats 400000 in
/-- The first result of the tail is the row list of the recovered mask: the groups' values composed, each read
    where the next group finds it. -/
theorem tail_rows (W : Valuation τ sig (Elt F)) :
    after (opss (F := F)).flatten W (main_v33 : DevRef τ sig)
      = Cert.Argwhere.rows (maskOf (W (main_v0 : DevRef τ sig))) := by
  rw [opss_flatten]
  simp only [StableHlo.after_append]
  rw [tailPairs_v33, tailFill_v26, tailFill_v27, tailPast_v25, tailPast_c10, tailPast_v18, tailPast_v20,
    tailCol_v20, tailCol_v18, tailCol_v3, tailRow_v18, tailRow_v16, tailRow_v3, tailPositions_v16, tailPositions_v3,
    tailHistogram_v15, tailHistogram_v3, tailClip_v7, tailClip_v6, tailClip_v3, tailCount_v5, tailCount_v3, tailMask_v3]
  rfl

set_option maxRecDepth 8192 in
set_option maxHeartbeats 400000 in
/-- The second result of the tail is the column list of the recovered mask. -/
theorem tail_cols (W : Valuation τ sig (Elt F)) :
    after (opss (F := F)).flatten W (main_v35 : DevRef τ sig)
      = Cert.Argwhere.cols (maskOf (W (main_v0 : DevRef τ sig))) := by
  rw [opss_flatten]
  simp only [StableHlo.after_append]
  rw [tailPairs_v35, tailFill_v26, tailFill_v27, tailPast_v25, tailPast_c10, tailPast_v18, tailPast_v20,
    tailCol_v20, tailCol_v18, tailCol_v3, tailRow_v18, tailRow_v16, tailRow_v3, tailPositions_v16, tailPositions_v3,
    tailHistogram_v15, tailHistogram_v3, tailClip_v7, tailClip_v6, tailClip_v3, tailCount_v5, tailCount_v3, tailMask_v3]
  rfl

end Groups

set_option maxRecDepth 8192 in
set_option maxHeartbeats 400000 in
/-- No operation of the tail writes the input matrix. -/
theorem tail_arg0 (W : Valuation τ sig (Elt F)) :
    after (opss (F := F)).flatten W (main_arg0 : DevRef τ sig) = W (main_arg0 : DevRef τ sig) := by
  rw [opss_flatten]
  delta tailMask tailCount tailClip tailHistogram tailPositions tailRow tailCol tailPast tailFill tailPairs
  simp only [List.cons_append, List.nil_append, after_cons, after_nil]
  rfl

end Cert.KernelIdeal.Hand

end
-- ==== Proof.KernelIdealArray.lean ====
/-
  From blocks to the array: what the thresholding kernel's output array holds after its one pipelined region, as one
  function of the input matrix.

  The region runs a grid of 12 × 6 points. At point `t` the output window writes back the `1024 × 2048` block at block
  index `(t / 6, t % 6)`, holding the comparison `x < 0.01` of the input block at the same block index, widened to 32-bit
  words. The two index maps agree at every point, so an element of the written block is the comparison of the input
  element at the same place of the whole matrix; and the 72 blocks tile the `12288 × 12288` array (element `(r, q)` lies in
  block `(r / 1024, q / 2048)`), so the array ends as the comparison of the whole matrix, element by element.
-/
import proofs.«156244_j7541962572511_1_alg».proof.Proof.KernelIdealData
import Idealize.ShloMosaic.Lib.Pipeline.Value
import Idealize.ShloMosaic.Lib.ValueIdx

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.KernelIdeal Cert.KernelIdeal.Gen
open Idealize.ShloMosaic.ValueIdx

variable {F : FTy → Type} [FloatOps F]

variable (m : (ℓ : Loc nD τ sig) → Buf (Elt F) ℓ)

/-- the comparison over the whole matrix, as 32-bit words -/
def thresholdWords (x : Vec F S12288x12288 .f32) : IVec S12288x12288 32 := extui 32 (cmpf .olt x (broadcast S12288x12288 (Scalar.ofBits .f32 0x3C23D70A#32))) natLt_1_32

/-- The whole-matrix comparison at one element: the element compared with the constant, widened. -/
theorem thresholdWords_apply (x : Vec F S12288x12288 .f32) (i : S12288x12288.Idx) :
    thresholdWords x i = (FloatOps.cmpf .olt (x i) (Scalar.ofBits .f32 0x3C23D70A#32 : F .f32)).setWidth 32 := rfl

/-- The body's stored words at one element of the block: the same comparison of the block's element. -/
theorem pay_apply (x0 : Vec F S1024x2048 .f32) (j : S1024x2048.Idx) :
    k0_pay1 x0 j = (FloatOps.cmpf .olt (x0 j) (Scalar.ofBits .f32 0x3C23D70A#32 : F .f32)).setWidth 32 := rfl

/-- The zero offsets of the whole-block rectangle, as the constant function. -/
theorem hz : (![0, 0] : Fin 2 → Nat) = fun _ => 0 := funext fun a => by fin_cases a <;> rfl

/-- What the body leaves from an input block is the comparison's words of that block: its one store covers the whole
    staging block, and its load reads the whole input block. -/
theorem out0_1_eq (x0 : Vec F S1024x2048 .f32) : out0_1 x0 = k0_pay1 x0 := by
  unfold out0_1
  rw [View.canon_unit_zero hz]
  simp only [View.ld_unit_zero (S := S1024x2048) hz]

/-- The printed index maps, decided over the 72 grid points: the input window and the output window have the same
    block index at every point, and it stays inside the 12 × 6 blocks. -/
theorem idx_facts : ∀ t : Fin cfg0.N, win0_0.index t (0 : Fin 2) = win0_1.index t (0 : Fin 2)
    ∧ win0_0.index t (1 : Fin 2) = win0_1.index t (1 : Fin 2)
    ∧ win0_1.index t (0 : Fin 2) ≤ 11 ∧ win0_1.index t (1 : Fin 2) ≤ 5 :=
  (by decide +kernel : ∀ t : Fin grid0.N, _)

/-- Every block index of the 12 × 6 blocks is some grid point's. -/
theorem idx_onto : ∀ (q0 : Fin 12) (q1 : Fin 6), ∃ t : Fin cfg0.N, win0_1.index t = ![q0.val, q1.val] :=
  (by decide +kernel : ∀ (q0 : Fin 12) (q1 : Fin 6), ∃ t : Fin grid0.N, win0_1.index t = ![q0.val, q1.val])

/-- What point `t` writes back is block `t` of the whole-matrix comparison: an element of a block sits in its array at
    block index × block size + its coordinate in the block, and the two windows' block indices agree. -/
theorem flushed_eq (c : Dev nD) (t : Fin cfg0.N) :
    (dats m 0 c).flushed 1 t = ((cfg0.win 1).blk t).view.read (Elt F) (thresholdWords (V m c main_arg0)) := by
  show (cfg0.win 1).cut (grid0.coords t) ((dats m 0 c).after 1 t) = _
  rw [after0_1, out0_1_eq]
  obtain ⟨e0, e1, -, -⟩ := idx_facts t
  funext j
  show (FloatOps.cmpf .olt (V m c main_arg0 (((cfg0.win 0).blk t).view.emb j)) (Scalar.ofBits .f32 0x3C23D70A#32 : F .f32)).setWidth 32
    = (FloatOps.cmpf .olt (V m c main_arg0 (((cfg0.win 1).blk t).view.emb j)) (Scalar.ofBits .f32 0x3C23D70A#32 : F .f32)).setWidth 32
  have h0 : ((cfg0.win 0).blk t).view.emb j = ((cfg0.win 1).blk t).view.emb j := by
    funext a; apply Fin.ext
    match a with
    | ⟨0, _⟩ => show win0_0.index t (0 : Fin 2) * 1024 + 1 * (j 0).val = win0_1.index t (0 : Fin 2) * 1024 + 1 * (j 0).val; omega
    | ⟨1, _⟩ => show win0_0.index t (1 : Fin 2) * 2048 + 1 * (j 1).val = win0_1.index t (1 : Fin 2) * 2048 + 1 * (j 1).val; omega
  rw [h0]

/-- An element of the array is in point `t`'s block iff each coordinate is in the block's range on its axis. -/
theorem mem_blk (t : Fin cfg0.N) (i : S12288x12288.Idx) :
    i ∈ ((cfg0.win 1).blk t).view.set ↔ ∀ a : Fin 2, win0_1.index t a * S1024x2048.size a ≤ (i a).val ∧ (i a).val < win0_1.index t a * S1024x2048.size a + S1024x2048.size a := by
  show i ∈ ((View.whole main_v0).slice (win0_1.rect t)).set ↔ _
  rw [View.set_slice_whole, Rect.mem_set_unit]
  exact Iff.rfl

/-- The blocks tile the array: element `(r, q)` lies in the block of the point whose block index is
    `(r / 1024, q / 2048)`, and every point writes its block back. -/
theorem cover (i : S12288x12288.Idx) :
    ∃ t : Fin cfg0.N, (cfg0.win 1).flush t = true ∧ i ∈ ((cfg0.win 1).blk t).view.set := by
  have hi0 : (i 0).val < 12288 := (i 0).isLt
  have hi1 : (i 1).val < 12288 := (i 1).isLt
  obtain ⟨t, ht⟩ := idx_onto ⟨(i 0).val / 1024, by omega⟩ ⟨(i 1).val / 2048, by omega⟩
  have q0 : win0_1.index t (0 : Fin 2) = (i 0).val / 1024 := congrFun ht 0
  have q1 : win0_1.index t (1 : Fin 2) = (i 1).val / 2048 := congrFun ht 1
  refine ⟨t, flush0_1 t, ?_⟩
  rw [mem_blk]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 2048 ≤ (i 1).val ∧ (i 1).val < win0_1.index t (1 : Fin 2) * 2048 + 2048; omega

/-- The output array after the region: the comparison of the whole input matrix, as 32-bit words. -/
theorem final1 (c : Dev nD) : (dats m 0 c).arrAt 1 cfg0.N = thresholdWords (m ((c : Thread nD τ).loc main_arg0)) := by
  rw [← V_main_arg0 m c]
  exact (dats m 0 c).arrAt_eq_of_cover 1 (thresholdWords (V m c main_arg0)) (fun t _ => flushed_eq m c t) cover

end Cert.KernelIdeal.Hand

end
-- ==== Proof.KernelIdealValue.lean ====
/-
  The value of the idealized kernel program: from any launch memory, every weakly fair execution ends with the two
  result buffers at the index list of the mask `x < 0.01` and the input matrix unchanged.

  The region leaves, in the array the host reads, the words of the comparison over the whole matrix (the blocks
  written back tile it). The host first turns each word back into a bit by comparing it with zero: a bit extended
  to 32 bits is nonzero exactly when the bit is one, so the recovered mask IS the comparison. The remaining host
  stretches are the index-list computation applied to that mask.
-/
import proofs.«156244_j7541962572511_1_alg».proof.Proof.KernelIdealFrame
import proofs.«156244_j7541962572511_1_alg».proof.Proof.KernelIdealTail
import proofs.«156244_j7541962572511_1_alg».proof.Proof.KernelIdealArray

noncomputable section

namespace Cert.KernelIdeal.Hand

open Idealize.ShloMosaic Idealize.ShloMosaic.TcCoe
open Idealize.SL Idealize.SL.Sem
open Idealize.ShloMosaic.StableHlo
open Cert.KernelIdeal Cert.KernelIdeal.Gen

variable {F : FTy → Type} [FloatOps F]

/-- A one-bit word is zero or one. -/
theorem bit_cases (b : BitVec 1) : b = 0#1 ∨ b = 1#1 := by
  rcases b with ⟨⟨v, hv⟩⟩
  have h : v = 0 ∨ v = 1 := by omega
  rcases h with rfl | rfl
  · left; rfl
  · right; rfl

/-- A bit extended to 32 bits differs from zero exactly when the bit is one. -/
theorem ne_zero_extend (b : BitVec 1) : IntOp.cmpi .ne (b.setWidth 32) 0#32 = b := by
  rcases bit_cases b with rfl | rfl <;> decide

/-- The threshold every entry is compared with: the one float word, at every index. -/
abbrev threshold : FVec F S12288x12288 .f32 :=
  broadcastInDim S12288x12288 ![] bcast_S_S12288x12288 (constant S_ .f32 0x3C23D70A#32)

/-- The mask the host recovers from the words the region wrote is the comparison itself. -/
theorem mask_words (x : Vec F S12288x12288 .f32) : maskOf (thresholdWords x) = cmpf .olt x threshold := by
  funext i
  show IntOp.cmpi .ne ((FloatOps.cmpf .olt (x i) (Scalar.ofBits .f32 0x3C23D70A#32)).setWidth 32) 0#32 = _
  rw [ne_zero_extend]
  rfl

variable (m : (ℓ : Loc nD τ sig) → Buf (Elt F) ℓ) (ρ : Dev nD → PrngReg)

/-- The valuation the host stretches after the region start from: the launch contents with the written array in
    place. -/
abbrev afterRegion (c : Dev nD) : Valuation τ sig (Elt F) :=
  Pipeline.withArrays spec0 c (V0 m c) fun w => (dats m 0 c).arrAt w cfg0.N

/-- The written array, read back by the host. -/
theorem afterRegion_words (c : Dev nD) :
    afterRegion m c (main_v0 : DevRef τ sig) = thresholdWords (m ((c : Thread nD τ).loc main_arg0)) :=
  (Pipeline.withArrays_arr spec0 launch0.win.arr_inj c _ _ 1).trans (final1 m c)

/-- The input matrix, as the host stretches find it. -/
theorem afterRegion_arg0 (c : Dev nD) :
    afterRegion m c (main_arg0 : DevRef τ sig) = m ((c : Thread nD τ).loc main_arg0) :=
  (Pipeline.withArrays_arr spec0 launch0.win.arr_inj c _ _ 0).trans (((dats m 0 c).arrAt_in 0 rfl cfg0.N).trans (A_eq m c 0))

/-- The run with its results named. -/
theorem run_value :
    θ_run defs (onTc (τ := τ) (main (F := F))) ⟨m, fun _ => 0, ρ⟩ (fun r => ∀ c : Dev nD,
      r.2.mem ((c.tc : Thread nD τ).loc main_v33) = Cert.Argwhere.rows (cmpf .olt (m ((c.tc : Thread nD τ).loc main_arg0)) threshold)
      ∧ r.2.mem ((c.tc : Thread nD τ).loc main_v35) = Cert.Argwhere.cols (cmpf .olt (m ((c.tc : Thread nD τ).loc main_arg0)) threshold)
      ∧ r.2.mem ((c.tc : Thread nD τ).loc main_arg0) = m ((c.tc : Thread nD τ).loc main_arg0)) := by
  refine (θ_run defs _ _).mono (fun r h c => ⟨?_, ?_, ?_⟩) (run_main m ρ)
  · refine ((h c).2 main_v33 (Pipeline.mem_restRefs_of main_v33 (by decide) (by decide))).trans ?_
    unfold Pipeline.afterTail₀
    refine (tail_rows (afterRegion m c)).trans ?_
    rw [afterRegion_words, mask_words]
  · refine ((h c).2 main_v35 (Pipeline.mem_restRefs_of main_v35 (by decide) (by decide))).trans ?_
    unfold Pipeline.afterTail₀
    refine (tail_cols (afterRegion m c)).trans ?_
    rw [afterRegion_words, mask_words]
  · exact ((h c).1 0).trans (((dats m 0 c).arrAt_in 0 rfl cfg0.N).trans ((A_eq m c 0).trans (V_main_arg0 m c)))

end Cert.KernelIdeal.Hand

end
-- ==== Proof.RefRun.lean ====
/-
  The reference program's run. Its @main is a straight line of StableHLO operations once every
  module-local function it calls is replaced by its body at the call site, over the buffers that call
  names: the threshold constant, its broadcast and the comparison that give the mask, and then the
  lowering of the mask's non-zero positions — a running count of the mask, ones scatter-added at the
  counts, a second running sum, floor division and remainder by the row length, minus one written past
  the number of set entries, and the two index columns cut out of the transposed pair of rows.
  The operations are listed once (`ops`, 128 of them, in program order); @main is their sequence
  (`main_eq`); each touches TensorCore buffers only (`ops_sub`); so from any memory whose counters
  are zero every weakly fair execution terminates and leaves each buffer at the fold of the
  operations' results over the launch contents (`run_main`).
-/
import proofs.«156244_j7541962572511_1_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

/-- @main's operations in program order, every call replaced by the callee's operations over that call's
    buffers. The mask `x < 0.01` is three (the constant, its broadcast, the comparison). Its running count
    is five: the mask flattened, widened to 32-bit integers, and the inclusive prefix sum as a windowed
    reduction from zero (the inner callee's three). A zero vector of the output length and a zero are three;
    the running count clamped below at zero is three. Eleven follow: negative counts wrapped by the output
    length (compare, add, select), the counts as a column, a vector of ones, and the ones scatter-added into
    the zero vector at the counts. The prefix sum of that is three. Then the row length and floor division by
    it (sixteen: truncated quotient, the signs' disagreement, the remainder's being non-zero, the quotient less
    one, the select), the row length and the remainder (twenty-one: the divisor replaced by one when zero, the
    truncated remainder, its sign corrected towards the divisor's), the constant one and floor division by it
    (sixteen), the row length and the remainder of that (twenty-one). Seven give the test `iota ≥ number of
    set entries` and the constant minus one; each index vector takes minus one where the test holds (three,
    the constant once more, three); the two vectors as rows are two; their concatenation, its transpose and
    the two columns, each sliced and reshaped, are six. -/
abbrev ops : List (HloOp τ sig (Elt F)) :=
  [ nullary main_cst (constant S_ .f32 0x3C23D70A#32),
    unary main_cst main_v0 (broadcastInDim S12288x12288 ![] bcast_S_S12288x12288 : (⟨S_, .f32⟩ : BufTy).Contents (Elt F) → (⟨S12288x12288, .f32⟩ : BufTy).Contents (Elt F)),
    binary main_arg0 main_v0 main_v1 (cmpf .olt : (⟨S12288x12288, .f32⟩ : BufTy).Contents (Elt F) → (⟨S12288x12288, .f32⟩ : BufTy).Contents (Elt F) → (⟨S12288x12288, .i1⟩ : BufTy).Contents (Elt F)),
    TRef.reshape (.of main_v1 : TRef sig ⟨S12288x12288, .i1⟩) main_call1.v0 rfl shapeCasts_S12288x12288_S150994944,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![150994944] ![1] ![150994943] ![0] x v reduceWindows_S150994944_S150994944_w150994944s1p150994943_0 h_S_),
    nullary main_c (constantI S_ 32 0#32),
    unary main_c main_v4 (broadcastInDim S3200000 ![] bcast_S_S3200000 : (⟨S_, .i32⟩ : BufTy).Contents (Elt F) → (⟨S3200000, .i32⟩ : BufTy).Contents (Elt F)),
    nullary main_c_0 (constantI S_ 32 0#32),
    TRef.unary (.of main_c_0 : TRef sig ⟨S_, .i32⟩) main_call2.v0 id,
    TRef.unary main_call2.v0 main_call2.v1 (broadcastInDim S150994944 ![] bcast_S_S150994944),
    TRef.binary main_call2.v1 (.of main_v3 : TRef sig ⟨S150994944, .i32⟩) main_call2.v2 maxsi,
    nullary main_c_1 (constantI S_ 32 0#32),
    unary main_c_1 main_v6 (broadcastInDim S150994944 ![] bcast_S_S150994944 : (⟨S_, .i32⟩ : BufTy).Contents (Elt F) → (⟨S150994944, .i32⟩ : BufTy).Contents (Elt F)),
    binary main_v5 main_v6 main_v7 (cmpi .slt : (⟨S150994944, .i32⟩ : BufTy).Contents (Elt F) → (⟨S150994944, .i32⟩ : BufTy).Contents (Elt F) → (⟨S150994944, .i1⟩ : BufTy).Contents (Elt F)),
    nullary main_c_2 (constantI S_ 32 3200000#32),
    unary main_c_2 main_v8 (broadcastInDim S150994944 ![] bcast_S_S150994944 : (⟨S_, .i32⟩ : BufTy).Contents (Elt F) → (⟨S150994944, .i32⟩ : BufTy).Contents (Elt F)),
    binary main_v5 main_v8 main_v9 (addi : (⟨S150994944, .i32⟩ : BufTy).Contents (Elt F) → (⟨S150994944, .i32⟩ : BufTy).Contents (Elt F) → (⟨S150994944, .i32⟩ : BufTy).Contents (Elt F)),
    ternary main_v7 main_v9 main_v5 main_v10 (select : (⟨S150994944, .i1⟩ : BufTy).Contents (Elt F) → (⟨S150994944, .i32⟩ : BufTy).Contents (Elt F) → (⟨S150994944, .i32⟩ : BufTy).Contents (Elt F) → (⟨S150994944, .i32⟩ : BufTy).Contents (Elt F)),
    unary main_v10 main_v11 (broadcastInDim S150994944x1 ![0] bcast_S150994944_S150994944x1_0 : (⟨S150994944, .i32⟩ : BufTy).Contents (Elt F) → (⟨S150994944x1, .i32⟩ : BufTy).Contents (Elt F)),
    nullary main_c_3 (constantI S_ 32 1#32),
    unary main_c_3 main_v12 (broadcastInDim S150994944 ![] bcast_S_S150994944 : (⟨S_, .i32⟩ : BufTy).Contents (Elt F) → (⟨S150994944, .i32⟩ : BufTy).Contents (Elt F)),
    ternary main_v4 main_v11 main_v12 main_v13 ((fun x i u => Host.scatter scatter_S3200000_S150994944x1_S150994944_n_0_0_1 IntOp.addi x i u) : (⟨S3200000, .i32⟩ : BufTy).Contents (Elt F) → (⟨S150994944x1, .i32⟩ : BufTy).Contents (Elt F) → (⟨S150994944, .i32⟩ : BufTy).Contents (Elt F) → (⟨S3200000, .i32⟩ : BufTy).Contents (Elt F)),
    TRef.nullary main_call3.call0.c (constantI S_ 32 0#32),
    TRef.unary main_call3.call0.c main_call3.call0.v0 (broadcastInDim S_ ![] bcast_S_S_),
    TRef.binary (.of main_v13 : TRef sig ⟨S3200000, .i32⟩) main_call3.call0.v0 main_call3.call0.v1 (fun x v => Host.reduceWindow IntOp.addi ![3200000] ![1] ![3199999] ![0] x v reduceWindows_S3200000_S3200000_w3200000s1p3199999_0 h_S_),
    nullary main_c_4 (constantI S_ 32 12288#32),
    TRef.unary (.of main_c_4 : TRef sig ⟨S_, .i32⟩) main_call4.v0 (broadcastInDim S3200000 ![] bcast_S_S3200000),
    TRef.binary (.of main_v14 : TRef sig ⟨S3200000, .i32⟩) main_call4.v0 main_call4.v1 Host.divsi,
    TRef.unary (.of main_v14 : TRef sig ⟨S3200000, .i32⟩) main_call4.v2 signi,
    TRef.unary (.of main_c_4 : TRef sig ⟨S_, .i32⟩) main_call4.v3 signi,
    TRef.unary main_call4.v3 main_call4.v4 (broadcastInDim S3200000 ![] bcast_S_S3200000),
    TRef.binary main_call4.v2 main_call4.v4 main_call4.v5 (cmpi .ne),
    TRef.unary (.of main_c_4 : TRef sig ⟨S_, .i32⟩) main_call4.v6 (broadcastInDim S3200000 ![] bcast_S_S3200000),
    TRef.binary (.of main_v14 : TRef sig ⟨S3200000, .i32⟩) main_call4.v6 main_call4.v7 Host.remsi,
    TRef.nullary main_call4.c (constantI S_ 32 0#32),
    TRef.unary main_call4.c main_call4.v8 (broadcastInDim S3200000 ![] bcast_S_S3200000),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S3200000 ![] bcast_S_S3200000),
    TRef.binary main_call4.v1 main_call4.v11 main_call4.v12 subi,
    TRef.ternary main_call4.v10 main_call4.v12 main_call4.v1 main_call4.call0.v0 select,
    nullary main_c_5 (constantI S_ 32 12288#32),
    TRef.unary (.of main_c_5 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S3200000 ![] bcast_S_S3200000),
    TRef.binary (.of main_v15 : TRef sig ⟨S3200000, .i32⟩) main_call5.v3 main_call5.v4 Host.remsi,
    TRef.nullary main_call5.c_1 (constantI S_ 32 0#32),
    TRef.unary main_call5.c_1 main_call5.v5 (broadcastInDim S3200000 ![] bcast_S_S3200000),
    TRef.binary main_call5.v4 main_call5.v5 main_call5.v6 (cmpi .ne),
    TRef.nullary main_call5.c_2 (constantI S_ 32 0#32),
    TRef.unary main_call5.c_2 main_call5.v7 (broadcastInDim S3200000 ![] bcast_S_S3200000),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S3200000 ![] bcast_S_S3200000),
    TRef.binary main_call5.v8 main_call5.v10 main_call5.v11 (cmpi .ne),
    TRef.binary main_call5.v11 main_call5.v6 main_call5.v12 andi,
    TRef.unary main_call5.call0.v0 main_call5.v13 (broadcastInDim S3200000 ![] bcast_S_S3200000),
    TRef.binary main_call5.v4 main_call5.v13 main_call5.v14 addi,
    TRef.ternary main_call5.v12 main_call5.v14 main_call5.v4 main_call5.v15 select,
    nullary main_c_6 (constantI S_ 32 1#32),
    TRef.unary (.of main_c_6 : TRef sig ⟨S_, .i32⟩) main_call6.v0 (broadcastInDim S3200000 ![] bcast_S_S3200000),
    TRef.binary (.of main_v14 : TRef sig ⟨S3200000, .i32⟩) main_call6.v0 main_call6.v1 Host.divsi,
    TRef.unary (.of main_v14 : TRef sig ⟨S3200000, .i32⟩) main_call6.v2 signi,
    TRef.unary (.of main_c_6 : TRef sig ⟨S_, .i32⟩) main_call6.v3 signi,
    TRef.unary main_call6.v3 main_call6.v4 (broadcastInDim S3200000 ![] bcast_S_S3200000),
    TRef.binary main_call6.v2 main_call6.v4 main_call6.v5 (cmpi .ne),
    TRef.unary (.of main_c_6 : TRef sig ⟨S_, .i32⟩) main_call6.v6 (broadcastInDim S3200000 ![] bcast_S_S3200000),
    TRef.binary (.of main_v14 : TRef sig ⟨S3200000, .i32⟩) main_call6.v6 main_call6.v7 Host.remsi,
    TRef.nullary main_call6.c (constantI S_ 32 0#32),
    TRef.unary main_call6.c main_call6.v8 (broadcastInDim S3200000 ![] bcast_S_S3200000),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S3200000 ![] bcast_S_S3200000),
    TRef.binary main_call6.v1 main_call6.v11 main_call6.v12 subi,
    TRef.ternary main_call6.v10 main_call6.v12 main_call6.v1 main_call6.call0.v0 select,
    nullary main_c_7 (constantI S_ 32 12288#32),
    TRef.unary (.of main_c_7 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S3200000 ![] bcast_S_S3200000),
    TRef.binary (.of main_v17 : TRef sig ⟨S3200000, .i32⟩) main_call7.v3 main_call7.v4 Host.remsi,
    TRef.nullary main_call7.c_1 (constantI S_ 32 0#32),
    TRef.unary main_call7.c_1 main_call7.v5 (broadcastInDim S3200000 ![] bcast_S_S3200000),
    TRef.binary main_call7.v4 main_call7.v5 main_call7.v6 (cmpi .ne),
    TRef.nullary main_call7.c_2 (constantI S_ 32 0#32),
    TRef.unary main_call7.c_2 main_call7.v7 (broadcastInDim S3200000 ![] bcast_S_S3200000),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S3200000 ![] bcast_S_S3200000),
    TRef.binary main_call7.v8 main_call7.v10 main_call7.v11 (cmpi .ne),
    TRef.binary main_call7.v11 main_call7.v6 main_call7.v12 andi,
    TRef.unary main_call7.call0.v0 main_call7.v13 (broadcastInDim S3200000 ![] bcast_S_S3200000),
    TRef.binary main_call7.v4 main_call7.v13 main_call7.v14 addi,
    TRef.ternary main_call7.v12 main_call7.v14 main_call7.v4 main_call7.v15 select,
    nullary main_v19 (iotaInDim S3200000 32 0),
    unary main_v1 main_v20 ((extui 32 · natLt_1_32) : (⟨S12288x12288, .i1⟩ : BufTy).Contents (Elt F) → (⟨S12288x12288, .i32⟩ : BufTy).Contents (Elt F)),
    nullary main_c_8 (constantI S_ 32 0#32),
    binary main_v20 main_c_8 main_v21 ((fun x v => Host.reduce IntOp.addi x v reducesTo_S12288x12288_S_d0_1 h_S_) : (⟨S12288x12288, .i32⟩ : BufTy).Contents (Elt F) → (⟨S_, .i32⟩ : BufTy).Contents (Elt F) → (⟨S_, .i32⟩ : BufTy).Contents (Elt F)),
    unary main_v21 main_v22 (broadcastInDim S3200000 ![] bcast_S_S3200000 : (⟨S_, .i32⟩ : BufTy).Contents (Elt F) → (⟨S3200000, .i32⟩ : BufTy).Contents (Elt F)),
    binary main_v19 main_v22 main_v23 (cmpi .sge : (⟨S3200000, .i32⟩ : BufTy).Contents (Elt F) → (⟨S3200000, .i32⟩ : BufTy).Contents (Elt F) → (⟨S3200000, .i1⟩ : BufTy).Contents (Elt F)),
    nullary main_c_9 (constantI S_ 32 4294967295#32),
    TRef.unary (.of main_c_9 : TRef sig ⟨S_, .i32⟩) main_call8.v0 id,
    TRef.unary main_call8.v0 main_call8.v1 (broadcastInDim S3200000 ![] bcast_S_S3200000),
    TRef.ternary (.of main_v23 : TRef sig ⟨S3200000, .i1⟩) main_call8.v1 (.of main_v16 : TRef sig ⟨S3200000, .i32⟩) main_call8.v2 select,
    nullary main_c_10 (constantI S_ 32 4294967295#32),
    TRef.unary (.of main_c_10 : TRef sig ⟨S_, .i32⟩) main_call9.v0 id,
    TRef.unary main_call9.v0 main_call9.v1 (broadcastInDim S3200000 ![] bcast_S_S3200000),
    TRef.ternary (.of main_v23 : TRef sig ⟨S3200000, .i1⟩) main_call9.v1 (.of main_v18 : TRef sig ⟨S3200000, .i32⟩) main_call9.v2 select,
    TRef.unary (.of main_v24 : TRef sig ⟨S3200000, .i32⟩) main_call10.v0 (broadcastInDim S1x3200000 ![1] bcast_S3200000_S1x3200000_1),
    TRef.unary (.of main_v25 : TRef sig ⟨S3200000, .i32⟩) main_call11.v0 (broadcastInDim S1x3200000 ![1] bcast_S3200000_S1x3200000_1),
    binary main_v26 main_v27 main_v28 ((fun a b => concatenate S2x3200000 0 [⟨S1x3200000, a⟩, ⟨S1x3200000, b⟩] concatenates_S1x3200000_S1x3200000_S2x3200000_d0) : (⟨S1x3200000, .i32⟩ : BufTy).Contents (Elt F) → (⟨S1x3200000, .i32⟩ : BufTy).Contents (Elt F) → (⟨S2x3200000, .i32⟩ : BufTy).Contents (Elt F)),
    unary main_v28 main_v29 ((transpose S3200000x2 [1, 0] · transposes_S2x3200000_S3200000x2_1_0) : (⟨S2x3200000, .i32⟩ : BufTy).Contents (Elt F) → (⟨S3200000x2, .i32⟩ : BufTy).Contents (Elt F)),
    unary main_v29 main_v30 ((extractStridedSlice S3200000x1 ![0, 0] · slices_S3200000x2_S3200000x1_0_0) : (⟨S3200000x2, .i32⟩ : BufTy).Contents (Elt F) → (⟨S3200000x1, .i32⟩ : BufTy).Contents (Elt F)),
    reshape main_v30 main_v31 rfl shapeCasts_S3200000x1_S3200000,
    unary main_v29 main_v32 ((extractStridedSlice S3200000x1 ![0, 1] · slices_S3200000x2_S3200000x1_0_1) : (⟨S3200000x2, .i32⟩ : BufTy).Contents (Elt F) → (⟨S3200000x1, .i32⟩ : BufTy).Contents (Elt F)),
    reshape main_v32 main_v33 rfl shapeCasts_S3200000x1_S3200000 ]

/-- @main is that straight line: with each callee's definition unfolded at its call and each call's record
    at its fields, both sides are one chain of single operations once sequencing is re-associated
    (`(a >>= f) >>= g = a >>= fun x => f x >>= g`, `pure a >>= f = f a`) — all by definitional unfolding. -/
theorem main_eq (c : Dev nD) : main (F := F) c = seq ops := by
  chain_rfl

/-- No TensorCore buffer of the signature is scoped, and it has no semaphore: every buffer is a tensor value's. -/
theorem scopedRefs_eq : (Finset.univ.filter fun b : Ref sig .tc => b.isScoped) = ∅ := by decide
theorem scopedSems_eq : (Finset.univ.filter fun sm : SemLoc sig => sm.isScoped .tc) = ∅ := by decide

/-- Each operation reads and writes TensorCore references only: every builder's buffers are its operands'
    and its result's. -/
theorem ops_sub : (ops : List (HloOp τ sig (Elt F))).Forall fun op => op.bufs ⊆ tcRefs τ sig :=
  ⟨nullary_bufs_sub .., unary_bufs_sub .., binary_bufs_sub .., reshape_bufs_sub .., unary_bufs_sub .., nullary_bufs_sub ..,
    unary_bufs_sub .., binary_bufs_sub .., nullary_bufs_sub .., unary_bufs_sub .., nullary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    ternary_bufs_sub .., nullary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., nullary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    nullary_bufs_sub .., binary_bufs_sub .., unary_bufs_sub .., binary_bufs_sub .., nullary_bufs_sub .., unary_bufs_sub ..,
    unary_bufs_sub .., ternary_bufs_sub .., nullary_bufs_sub .., unary_bufs_sub .., unary_bufs_sub .., ternary_bufs_sub ..,
    unary_bufs_sub .., unary_bufs_sub .., binary_bufs_sub .., unary_bufs_sub .., unary_bufs_sub .., reshape_bufs_sub ..,
    unary_bufs_sub .., reshape_bufs_sub ..⟩

/-- At the compiled mesh, for any float values, from any memory with zero counters: every weakly fair
    execution of @main on the TensorCores terminates, and every final state has each TensorCore buffer at
    the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefValue.lean ====
/-
  What the reference program leaves at its two results, as the specification's functions of the mask.
  The line of 128 operations is cut into six stretches; each stretch's result buffer is computed from any
  contents before it (the values it reads taken as given), and the buffers it only passes by are unchanged;
  composing the six equations gives the two results as the row and column indices of the mask's set
  entries, minus one past their number — the mask being `x < 0.01` on the argument. The argument's own
  buffer is written by no operation.
-/
import proofs.«156244_j7541962572511_1_alg».proof.Proof.RefRun
import proofs.«156244_j7541962572511_1_alg».proof.Proof.Argwhere

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

/-! The auxiliary names of this module live in `Value`; the three results are stated in the enclosing namespace. -/
namespace Value

/-! ## Cutting a line of operations -/

/-- The fold over two lines run one after the other is the second line's fold over the first's. -/
theorem after_append' (l₁ l₂ : List (HloOp τ sig (Elt F))) (V : Valuation τ sig (Elt F)) :
    after (l₁ ++ l₂) V = after l₂ (after l₁ V) := by
  induction l₁ generalizing V with
  | nil => rfl
  | cons op l ih => exact ih _

/-- A line cut after its first `n` operations: the rest's fold over the first `n`'s. -/
theorem after_cut (n : Nat) (l : List (HloOp τ sig (Elt F))) (V : Valuation τ sig (Elt F)) :
    after l V = after (l.drop n) (after (l.take n) V) := by
  rw [← after_append', List.take_append_drop]

/-- The six stretches of @main: up to the flat positions of the set entries (28 operations); the row length and
    the quotient by it (17); the row length and the quotient's remainder (22); one and the quotient by it (17);
    the row length and that quotient's remainder (22); the fill and the two columns (22). -/
abbrev sA : List (HloOp τ sig (Elt F)) := ops.take 28
abbrev sB : List (HloOp τ sig (Elt F)) := (ops.drop 28).take 17
abbrev sC : List (HloOp τ sig (Elt F)) := ((ops.drop 28).drop 17).take 22
abbrev sD : List (HloOp τ sig (Elt F)) := (((ops.drop 28).drop 17).drop 22).take 17
abbrev sE : List (HloOp τ sig (Elt F)) := ((((ops.drop 28).drop 17).drop 22).drop 17).take 22
abbrev sT : List (HloOp τ sig (Elt F)) := ((((ops.drop 28).drop 17).drop 22).drop 17).drop 22

/-- @main's fold is the six stretches' folds, composed in order. -/
theorem after_ops (V : Valuation τ sig (Elt F)) :
    after ops V = after sT (after sE (after sD (after sC (after sB (after sA V))))) := by
  rw [after_cut 28 ops, after_cut 17 (ops.drop 28), after_cut 22 ((ops.drop 28).drop 17),
    after_cut 17 (((ops.drop 28).drop 17).drop 22), after_cut 22 ((((ops.drop 28).drop 17).drop 22).drop 17)]

/-- The two index vectors, each a row of length 3200000, stacked along axis 0. -/
def stack (a b : IVec S1x3200000 32) : IVec S2x3200000 32 :=
  concatenate S2x3200000 0 [⟨S1x3200000, a⟩, ⟨S1x3200000, b⟩] concatenates_S1x3200000_S1x3200000_S2x3200000_d0

/-- The concatenation's result buffer holds the stack of its two operand buffers. -/
theorem stack_result (W : Valuation τ sig (Elt F)) (ha hb hy) :
    (binary (τ := τ) main_v26 main_v27 main_v28
        ((fun a b => concatenate S2x3200000 0 [⟨S1x3200000, a⟩, ⟨S1x3200000, b⟩] concatenates_S1x3200000_S1x3200000_S2x3200000_d0) :
          (⟨S1x3200000, .i32⟩ : BufTy).Contents (Elt F) → (⟨S1x3200000, .i32⟩ : BufTy).Contents (Elt F) → (⟨S2x3200000, .i32⟩ : BufTy).Contents (Elt F))
        ha hb hy).result W (no_index (Proc.devRef .tc main_v28))
      = stack (W (Proc.devRef .tc main_v26)) (W (Proc.devRef .tc main_v27)) :=
  binary_result' _ ha hb hy W

/-- The mask of the program: where the argument is below the threshold. -/
abbrev maskOf (V : Valuation τ sig (Elt F)) : IVec S12288x12288 1 :=
  (cmpf .olt (V (main_arg0 : DevRef τ sig)) (broadcastInDim S12288x12288 ![] bcast_S_S12288x12288 (constant S_ .f32 0x3C23D70A#32)))

/-- The two index vectors, filled with minus one past the number of set entries of the mask, side by side. -/
def tailPairs (m : IVec S12288x12288 1) (r c : IVec S3200000 32) : IVec S3200000x2 32 :=
  transpose S3200000x2 [1, 0]
    (stack
      (broadcastInDim S1x3200000 ![1] bcast_S3200000_S1x3200000_1
        (Cert.Argwhere.fillWhere (Cert.Argwhere.pastCount m) (Cert.Argwhere.lit 4294967295#32) r))
      (broadcastInDim S1x3200000 ![1] bcast_S3200000_S1x3200000_1
        (Cert.Argwhere.fillWhere (Cert.Argwhere.pastCount m) (Cert.Argwhere.lit 4294967295#32) c)))
    transposes_S2x3200000_S3200000x2_1_0

/-! ## Each stretch, from any contents -/

/-- A stretch read at one buffer: its operations listed out of @main's, the fold unrolled, and each operation's result
    taken at its own buffer as its function's value and at any other buffer as what was there before. -/
local macro "stretch_results" : tactic =>
  `(tactic| simp (disch := decide) only [↓stack_result, sA, sB, sC, sD, sE, sT, List.take_succ_cons, List.take_zero,
      List.drop_succ_cons, List.drop_zero, after_cons, after_nil, nullary_result', unary_result', binary_result',
      ternary_result', reshape_result', nullary_result_ne', unary_result_ne', binary_result_ne', ternary_result_ne',
      reshape_result_ne'])

/-- A callee's operation moves contents between a buffer's type and the tensor value's type it carries; at these
    literal buffers the two types are one, so each move is the identity. -/
local macro "same_types" : tactic =>
  `(tactic| (simp only [TRef.toBuf, TRef.ofBuf]; repeat rw [cast_eq]))

/-- The first stretch leaves the mask at its buffer … -/
theorem A_v1 (V : Valuation τ sig (Elt F)) : after sA V (main_v1 : DevRef τ sig) = maskOf V := by
  stretch_results

set_option maxRecDepth 8192 in
/-- … and, slot by slot, the flat positions of the mask's set entries at theirs: the running count of the mask,
    clamped below at zero, the histogram of those counts, and its running sum. -/
theorem A_v14 (V : Valuation τ sig (Elt F)) : after sA V (main_v14 : DevRef τ sig) = Cert.Argwhere.positions (maskOf V) := by
  stretch_results
  same_types
  rfl

set_option maxRecDepth 8192 in
/-- The second stretch: the floor quotient of the positions by the row length. -/
theorem B_v15 (W : Valuation τ sig (Elt F)) :
    after sB W (main_v15 : DevRef τ sig) = Cert.Argwhere.floorDiv (W (main_v14 : DevRef τ sig)) (Cert.Argwhere.lit 12288#32) := by
  stretch_results
  same_types
  rfl

/-- It writes neither the mask … -/
theorem B_v1 (W : Valuation τ sig (Elt F)) : after sB W (main_v1 : DevRef τ sig) = W (main_v1 : DevRef τ sig) := by
  stretch_results

/-- … nor the positions. -/
theorem B_v14 (W : Valuation τ sig (Elt F)) : after sB W (main_v14 : DevRef τ sig) = W (main_v14 : DevRef τ sig) := by
  stretch_results

set_option maxRecDepth 8192 in
/-- The third stretch: that quotient reduced by the row length. -/
theorem C_v16 (W : Valuation τ sig (Elt F)) :
    after sC W (main_v16 : DevRef τ sig) = Cert.Argwhere.floorMod (W (main_v15 : DevRef τ sig)) (Cert.Argwhere.lit 12288#32) := by
  stretch_results
  same_types
  rfl

/-- It writes neither the mask … -/
theorem C_v1 (W : Valuation τ sig (Elt F)) : after sC W (main_v1 : DevRef τ sig) = W (main_v1 : DevRef τ sig) := by
  stretch_results

/-- … nor the positions. -/
theorem C_v14 (W : Valuation τ sig (Elt F)) : after sC W (main_v14 : DevRef τ sig) = W (main_v14 : DevRef τ sig) := by
  stretch_results

set_option maxRecDepth 8192 in
/-- The fourth stretch: the floor quotient of the positions by one. -/
theorem D_v17 (W : Valuation τ sig (Elt F)) :
    after sD W (main_v17 : DevRef τ sig) = Cert.Argwhere.floorDiv (W (main_v14 : DevRef τ sig)) (Cert.Argwhere.lit 1#32) := by
  stretch_results
  same_types
  rfl

/-- It writes neither the mask … -/
theorem D_v1 (W : Valuation τ sig (Elt F)) : after sD W (main_v1 : DevRef τ sig) = W (main_v1 : DevRef τ sig) := by
  stretch_results

/-- … nor the row indices. -/
theorem D_v16 (W : Valuation τ sig (Elt F)) : after sD W (main_v16 : DevRef τ sig) = W (main_v16 : DevRef τ sig) := by
  stretch_results

set_option maxRecDepth 8192 in
/-- The fifth stretch: that quotient reduced by the row length. -/
theorem E_v18 (W : Valuation τ sig (Elt F)) :
    after sE W (main_v18 : DevRef τ sig) = Cert.Argwhere.floorMod (W (main_v17 : DevRef τ sig)) (Cert.Argwhere.lit 12288#32) := by
  stretch_results
  same_types
  rfl

/-- It writes neither the mask … -/
theorem E_v1 (W : Valuation τ sig (Elt F)) : after sE W (main_v1 : DevRef τ sig) = W (main_v1 : DevRef τ sig) := by
  stretch_results

/-- … nor the row indices. -/
theorem E_v16 (W : Valuation τ sig (Elt F)) : after sE W (main_v16 : DevRef τ sig) = W (main_v16 : DevRef τ sig) := by
  stretch_results

set_option maxRecDepth 8192 in
/-- The last stretch: the first column of the filled pair, flattened … -/
theorem T_v31 (W : Valuation τ sig (Elt F)) :
    after sT W (main_v31 : DevRef τ sig)
      = fun i => shapeCast S3200000 (extractStridedSlice S3200000x1 ![0, 0]
          (tailPairs (W (main_v1 : DevRef τ sig)) (W (main_v16 : DevRef τ sig)) (W (main_v18 : DevRef τ sig)))
          slices_S3200000x2_S3200000x1_0_0) shapeCasts_S3200000x1_S3200000 i := by
  stretch_results
  same_types
  rfl

set_option maxRecDepth 8192 in
/-- … and the second. -/
theorem T_v33 (W : Valuation τ sig (Elt F)) :
    after sT W (main_v33 : DevRef τ sig)
      = fun i => shapeCast S3200000 (extractStridedSlice S3200000x1 ![0, 1]
          (tailPairs (W (main_v1 : DevRef τ sig)) (W (main_v16 : DevRef τ sig)) (W (main_v18 : DevRef τ sig)))
          slices_S3200000x2_S3200000x1_0_1) shapeCasts_S3200000x1_S3200000 i := by
  stretch_results
  same_types
  rfl

/-! ## The results -/

/-- The first result is the row indices of the mask's set entries: the stretches' equations composed, last
    stretch first, then the specification's definitions unfolded. -/
theorem _root_.Cert.ReferenceIdeal.Hand.rows_eq (V : Valuation τ sig (Elt F)) :
    after ops V (main_v31 : DevRef τ sig) = Cert.Argwhere.rows (cmpf .olt (V (main_arg0 : DevRef τ sig)) (broadcastInDim S12288x12288 ![] bcast_S_S12288x12288 (constant S_ .f32 0x3C23D70A#32))) := by
  rw [after_ops, T_v31, E_v1, E_v16, E_v18, D_v1, D_v16, D_v17, C_v1, C_v16, C_v14, B_v1, B_v15, B_v14, A_v1, A_v14]
  rfl

/-- The second result is their column indices. -/
theorem _root_.Cert.ReferenceIdeal.Hand.cols_eq (V : Valuation τ sig (Elt F)) :
    after ops V (main_v33 : DevRef τ sig) = Cert.Argwhere.cols (cmpf .olt (V (main_arg0 : DevRef τ sig)) (broadcastInDim S12288x12288 ![] bcast_S_S12288x12288 (constant S_ .f32 0x3C23D70A#32))) := by
  rw [after_ops, T_v33, E_v1, E_v16, E_v18, D_v1, D_v16, D_v17, C_v1, C_v16, C_v14, B_v1, B_v15, B_v14, A_v1, A_v14]
  rfl

/-- No operation writes the argument's buffer. -/
theorem _root_.Cert.ReferenceIdeal.Hand.arg0_eq (V : Valuation τ sig (Elt F)) :
    after ops V (main_arg0 : DevRef τ sig) = V (main_arg0 : DevRef τ sig) := by
  stretch_results

end Value

end Cert.ReferenceIdeal.Hand

end
-- ==== Proof.lean ====
/-
  The certificate of the thresholding kernel against its reference.

  Both programs compute the index list (rows and columns, row-major, padded with `-1` to 3200000 entries) of the
  entries of a `12288 × 12288` matrix below the float `0.01`. The reference compares on the host; the kernel compares
  block by block in a pipelined region, writes the result as 32-bit words, and the host turns the words back into
  bits. From there on the two programs run the same index-list computation, which the certificate carries as one
  function of the mask and never opens. The comparison is the same function on both sides at every float instance
  — the same float word is compared with, by the same ordered less-than — so nothing is asked of the inputs beyond
  what the statement gives.

  The three frames: each program's run terminates without a fault and leaves the input matrix as launched. The two
  kernel programs are the pipeline's frame run followed by the host stretches, none of which writes the input; the
  reference is a straight line of host operations, none of which writes it either.
-/
import proofs.«156244_j7541962572511_1_alg».proof.Defs
import proofs.«156244_j7541962572511_1_alg».proof.Proof.Gen.Pre_finite_inputs
import proofs.«156244_j7541962572511_1_alg».proof.Proof.KernelFrame
import proofs.«156244_j7541962572511_1_alg».proof.Proof.KernelIdealValue
import proofs.«156244_j7541962572511_1_alg».proof.Proof.RefValue

noncomputable section

namespace Cert.Proof

open Idealize.ShloMosaic Idealize.ShloMosaic.TcCoe Idealize.SL.Sem

/-- The word-level kernel program runs and keeps its input. -/
theorem frame_kernel : Cert.frame_Kernel := fun m ρ _ => Cert.Kernel.Hand.frame m ρ

/-- The idealized kernel program runs and keeps its input. -/
theorem frame_kernelIdeal : Cert.frame_KernelIdeal := fun m ρ _ => Cert.KernelIdeal.Hand.frame m ρ

/-- The reference runs and keeps its input: its run, read at the input's buffer. -/
theorem frame_reference : Cert.frame_ReferenceIdeal := fun m ρ _ =>
  (θ_run Cert.ReferenceIdeal.defs _ _).mono
    (fun r h c => (h c Cert.ReferenceIdeal.main_arg0).trans (Cert.ReferenceIdeal.Hand.arg0_eq _))
    (Cert.ReferenceIdeal.Hand.run_main (F := Ideal) m ρ)

/-- The idealization rewrote nothing: there is nothing to preserve. -/
theorem preserves : Cert.preserves_Kernel_KernelIdeal := trivial

/-- From memories agreeing on the input, both programs end with the index list of the same mask. -/
theorem algebraic : Cert.algebraic_KernelIdeal_ReferenceIdeal := by
  intro m ρ m' ρ' _ hagree
  refine ⟨_, _, Cert.KernelIdeal.Hand.run_value (F := Ideal) m ρ, ?_⟩
  refine (θ_run Cert.ReferenceIdeal.defs _ _).mono (fun r h c => ⟨?_, ?_, ?_⟩)
    (Cert.ReferenceIdeal.Hand.run_main (F := Ideal) m' ρ')
  · refine (h c Cert.ReferenceIdeal.main_v31).trans ((Cert.ReferenceIdeal.Hand.rows_eq _).trans ?_)
    exact congrArg (fun x : FVec Ideal Cert.Argwhere.SM .f32 => Cert.Argwhere.rows (cmpf .olt x Cert.KernelIdeal.Hand.threshold)) (hagree c)
  · refine (h c Cert.ReferenceIdeal.main_v33).trans ((Cert.ReferenceIdeal.Hand.cols_eq _).trans ?_)
    exact congrArg (fun x : FVec Ideal Cert.Argwhere.SM .f32 => Cert.Argwhere.cols (cmpf .olt x Cert.KernelIdeal.Hand.threshold)) (hagree c)
  · exact (h c Cert.ReferenceIdeal.main_arg0).trans (Cert.ReferenceIdeal.Hand.arg0_eq _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
